-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x2048 32) (main_arg2 : FVec F S11008x32 .f32) (main_arg3 : IVec S11008x32 32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x2048 : Shape := ⟨2, ![11008, 2048]⟩
abbrev S11008x32 : Shape := ⟨2, ![11008, 32]⟩
abbrev S11008 : Shape := ⟨1, ![11008]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x32x128 : Shape := ⟨3, ![11008, 32, 128]⟩
abbrev S11008x32x1 : Shape := ⟨3, ![11008, 32, 1]⟩
abbrev S11264x4096 : Shape := ⟨2, ![11264, 4096]⟩
abbrev S11264 : Shape := ⟨1, ![11264]⟩
abbrev S1x11264 : Shape := ⟨2, ![1, 11264]⟩
abbrev S8192x11264 : Shape := ⟨2, ![8192, 11264]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S8192x11008 : Shape := ⟨2, ![8192, 11008]⟩
abbrev S4x2048x11008 : Shape := ⟨3, ![4, 2048, 11008]⟩

abbrev nBuf : Space → Nat
  | .hbm => 65
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x32, .f32⟩
  | .hbm, ⟨3, _⟩ => ⟨S11008x32, .i32⟩
  | .hbm, ⟨4, _⟩ => ⟨S11008, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .bf16⟩
  | .hbm, ⟨31, _⟩ => ⟨S_, .i32⟩
  | .hbm, ⟨32, _⟩ => ⟨S11008x2048, .i32⟩
  | .hbm, ⟨33, _⟩ => ⟨S11008x2048, .i32⟩
  | .hbm, ⟨34, _⟩ => ⟨S_, .i32⟩
  | .hbm, ⟨35, _⟩ => ⟨S11008x2048, .i32⟩
  | .hbm, ⟨36, _⟩ => ⟨S11008x2048, .i32⟩
  | .hbm, ⟨37, _⟩ => ⟨S_, .i32⟩
  | .hbm, ⟨38, _⟩ => ⟨S11008x2048, .i32⟩
  | .hbm, ⟨39, _⟩ => ⟨S11008x2048, .i32⟩
  | .hbm, ⟨40, _⟩ => ⟨S11008x2048x1, .i32⟩
  | .hbm, ⟨41, _⟩ => ⟨S11008x2048x1, .i32⟩
  | .hbm, ⟨42, _⟩ => ⟨S11008x2048x2, .i32⟩
  | .hbm, ⟨43, _⟩ => ⟨S11008x4096, .i32⟩
  | .hbm, ⟨44, _⟩ => ⟨S11008x4096, .f32⟩
  | .hbm, ⟨45, _⟩ => ⟨S11008x32x128, .f32⟩
  | .hbm, ⟨46, _⟩ => ⟨S11008x32, .f32⟩
  | .hbm, ⟨47, _⟩ => ⟨S11008x32x1, .f32⟩
  | .hbm, ⟨48, _⟩ => ⟨S11008x32x1, .f32⟩
  | .hbm, ⟨49, _⟩ => ⟨S11008x32x128, .f32⟩
  | .hbm, ⟨50, _⟩ => ⟨S11008x32x128, .f32⟩
  | .hbm, ⟨51, _⟩ => ⟨S11008x32x128, .f32⟩
  | .hbm, ⟨52, _⟩ => ⟨S11008x32x128, .f32⟩
  | .hbm, ⟨53, _⟩ => ⟨S11008x4096, .f32⟩
  | .hbm, ⟨54, _⟩ => ⟨S_, .i32⟩
  | .hbm, ⟨55, _⟩ => ⟨S_, .f32⟩
  | .hbm, ⟨56, _⟩ => ⟨S11264x4096, .f32⟩
  | .hbm, ⟨57, _⟩ => ⟨S11264x4096, .bf16⟩
  | .hbm, ⟨58, _⟩ => ⟨S_, .i32⟩
  | .hbm, ⟨59, _⟩ => ⟨S_, .f32⟩
  | .hbm, ⟨60, _⟩ => ⟨S11264, .f32⟩
  | .hbm, ⟨61, _⟩ => ⟨S1x11264, .f32⟩
  | .hbm, ⟨62, _⟩ => ⟨S8192x11264, .f32⟩
  | .hbm, ⟨63, _⟩ => ⟨S8192x11008, .f32⟩
  | .hbm, ⟨64, _⟩ => ⟨S4x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_cst_3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_call3_v0 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_call4_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bitsLt_bf16_f32 : FTy.bits .bf16 < FTy.bits .f32
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  pads_S11008x4096_S11264x4096_02560_000 : S11008x4096.Pads (![0, 0] : Fin 2 → Nat) ![256, 0] ![0, 0] S11264x4096
  pads_S11008_S11264_02560 : S11008.Pads (![0] : Fin 1 → Nat) ![256] ![0] S11264
  shapeCasts_S11264_S1x11264 : S11264.ShapeCasts S1x11264
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  slices_S8192x11264_S8192x11008_0_0 : S8192x11264.Slices ![0, 0] S8192x11008
  shapeCasts_S8192x11008_S4x2048x11008 : S8192x11008.ShapeCasts S4x2048x11008
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S11264x4096.size a
  hwx0_1 : ∀ i : grid0.Coords, EltTy.bits .bf16 = 32 ∨ (Rect.block (s := S11264x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x11264.size a
  hwx0_2 : ∀ i : grid0.Coords, EltTy.bits .f32 = 32 ∨ (Rect.block (s := S1x11264) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x11264.size a
  hwx0_3 : ∀ i : grid0.Coords, EltTy.bits .f32 = 32 ∨ (Rect.block (s := S8192x11264) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v13) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩
abbrev S4x2048 : Shape := ⟨2, ![4, 2048]⟩
abbrev S4x2048x1 : Shape := ⟨3, ![4, 2048, 1]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S352256x128 : Shape := ⟨2, ![352256, 128]⟩
abbrev S352256x1 : Shape := ⟨2, ![352256, 1]⟩
abbrev S4x2048x11008 : Shape := ⟨3, ![4, 2048, 11008]⟩
abbrev S1x1x11008 : Shape := ⟨3, ![1, 1, 11008]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008x32, .f32⟩
  | .hbm, ⟨3, _⟩ => ⟨S11008x32, .i32⟩
  | .hbm, ⟨4, _⟩ => ⟨S11008, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S_, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S_, .i32⟩
  | .hbm, ⟨30, _⟩ => ⟨S11008x2048, .i32⟩
  | .hbm, ⟨31, _⟩ => ⟨S11008x2048, .i32⟩
  | .hbm, ⟨32, _⟩ => ⟨S_, .i32⟩
  | .hbm, ⟨33, _⟩ => ⟨S11008x2048, .i32⟩
  | .hbm, ⟨34, _⟩ => ⟨S11008x2048, .i32⟩
  | .hbm, ⟨35, _⟩ => ⟨S_, .i32⟩
  | .hbm, ⟨36, _⟩ => ⟨S11008x2048, .i32⟩
  | .hbm, ⟨37, _⟩ => ⟨S11008x2048, .i32⟩
  | .hbm, ⟨38, _⟩ => ⟨S11008x2048x1, .i32⟩
  | .hbm, ⟨39, _⟩ => ⟨S11008x2048x1, .i32⟩
  | .hbm, ⟨40, _⟩ => ⟨S11008x2048x2, .i32⟩
  | .hbm, ⟨41, _⟩ => ⟨S11008x4096, .i32⟩
  | .hbm, ⟨42, _⟩ => ⟨S11008x4096, .f32⟩
  | .hbm, ⟨43, _⟩ => ⟨S352256x128, .f32⟩
  | .hbm, ⟨44, _⟩ => ⟨S352256x1, .i32⟩
  | .hbm, ⟨45, _⟩ => ⟨S352256x1, .f32⟩
  | .hbm, ⟨46, _⟩ => ⟨S352256x128, .f32⟩
  | .hbm, ⟨47, _⟩ => ⟨S352256x128, .f32⟩
  | .hbm, ⟨48, _⟩ => ⟨S352256x1, .f32⟩
  | .hbm, ⟨49, _⟩ => ⟨S352256x128, .f32⟩
  | .hbm, ⟨50, _⟩ => ⟨S352256x128, .f32⟩
  | .hbm, ⟨51, _⟩ => ⟨S11008x4096, .f32⟩
  | .hbm, ⟨52, _⟩ => ⟨S4x2048x11008, .f32⟩
  | .hbm, ⟨53, _⟩ => ⟨S1x1x11008, .f32⟩
  | .hbm, ⟨54, _⟩ => ⟨S4x2048x11008, .f32⟩
  | .hbm, ⟨55, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_c_2 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S11008x4096_S352256x128 : S11008x4096.ShapeCasts S352256x128
  shapeCasts_S11008x32_S352256x1 : S11008x32.ShapeCasts S352256x1
  bcast_S352256x1_S352256x128_0_1 : S352256x1.BroadcastsInDim S352256x128 (![0, 1] : Fin 2 → Fin S352256x128.rank)
  shapeCasts_S352256x128_S11008x4096 : S352256x128.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.RefRun.lean ====
/-
  The reference's run, read one stretch of its operation list at a time.

  The 51 host operations fall into five stretches: (A) the token's quantisation step — magnitudes, their row maximum,
  the floor ε, the division by 127 — and the activation divided by it; (B) rounding, clipping to ±127 and scaling
  back; (C) the two nibbles of every packed word laid side by side; (D) the nibbles as floats, regrouped by 128,
  less the group's zero point, times the group's scale, laid back as [11008, 4096]; (E) the contraction over the
  4096 input features and the bias. Each stretch is evaluated from ANY buffer contents V: what it leaves in the
  buffers later stretches read is the corresponding stage (the `val_` functions) of what V holds in the buffers it
  reads, and buffers it does not write keep their contents. Chaining the five gives the result buffer after the whole
  list as the last stage of the arguments' launch contents, and with the library's run of a straight line of host
  operations that is the program's run.
-/
import proofs.«401755_j68324339745161_3_alg».proof.Proof.RefRead
import Idealize.ShloMosaic.Lib.StableHlo.Run

noncomputable section

namespace Cert.ReferenceIdeal.RefRun

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-- Stretch A, first part: the magnitudes and their row maximum. -/
abbrev opsA1 : List (HloOp τ sig (Elt F)) :=
  [ unary main_arg0 main_v0 (Host.absf : (⟨S4x2048x4096, .f32⟩ : BufTy).Contents (Elt F) → (⟨S4x2048x4096, .f32⟩ : BufTy).Contents (Elt F)),
    nullary main_cst (constant S_ .f32 0xFF800000#32),
    binary main_v0 main_cst main_v1 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)) ]

/-- Stretch A, second part: the quantisation step from the row maxima, and the activation divided by it. -/
abbrev opsA2 : List (HloOp τ sig (Elt F)) :=
  [ unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x2048x1, .f32⟩) main_call0_v1) (broadcastInDim S4x2048x1 ![] bcast_S_S4x2048x1),
    TRef.binary (TRef.of (T := ⟨S4x2048x1, .f32⟩) main_call0_v1) (TRef.of (T := ⟨S4x2048x1, .f32⟩) main_v2) (TRef.of (T := ⟨S4x2048x1, .f32⟩) main_v3) maximumf,
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v3 main_v4 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v6 main_v7 (Host.divf : (⟨S4x2048x4096, .f32⟩ : BufTy).Contents (Elt F) → (⟨S4x2048x4096, .f32⟩ : BufTy).Contents (Elt F) → (⟨S4x2048x4096, .f32⟩ : BufTy).Contents (Elt F)) ]

/-- Stretch B: round, clip to ±127, scale back. -/
abbrev opsB : List (HloOp τ sig (Elt F)) :=
  [ TRef.unary (TRef.of (T := ⟨S4x2048x4096, .f32⟩) main_v7) (TRef.of (T := ⟨S4x2048x4096, .f32⟩) main_v8) Host.roundeven,
    nullary main_c (constantI S_ 32 4294967169#32),
    nullary main_c_2 (constantI S_ 32 127#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S4x2048x4096, .f32⟩) main_call2_v1) (broadcastInDim S4x2048x4096 ![] bcast_S_S4x2048x4096),
    TRef.binary (TRef.of (T := ⟨S4x2048x4096, .f32⟩) main_call2_v1) (TRef.of (T := ⟨S4x2048x4096, .f32⟩) main_v8) (TRef.of (T := ⟨S4x2048x4096, .f32⟩) main_call2_v2) maximumf,
    TRef.unary (TRef.of (T := ⟨S_, .i32⟩) main_c_2) (TRef.of (T := ⟨S_, .f32⟩) main_call2_v3) (sitofp .f32),
    TRef.unary (TRef.of (T := ⟨S_, .f32⟩) main_call2_v3) (TRef.of (T := ⟨S4x2048x4096, .f32⟩) main_call2_v4) (broadcastInDim S4x2048x4096 ![] bcast_S_S4x2048x4096),
    TRef.binary (TRef.of (T := ⟨S4x2048x4096, .f32⟩) main_call2_v4) (TRef.of (T := ⟨S4x2048x4096, .f32⟩) main_call2_v2) (TRef.of (T := ⟨S4x2048x4096, .f32⟩) main_v9) minimumf,
    unary main_v5 main_v10 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v9 main_v10 main_v11 (mulf : (⟨S4x2048x4096, .f32⟩ : BufTy).Contents (Elt F) → (⟨S4x2048x4096, .f32⟩ : BufTy).Contents (Elt F) → (⟨S4x2048x4096, .f32⟩ : BufTy).Contents (Elt F)) ]

/-- Stretch C: the two nibbles of each packed word, side by side. -/
abbrev opsC : List (HloOp τ sig (Elt F)) :=
  [ nullary main_c_3 (constantI S_ 32 15#32),
    unary main_c_3 main_v12 (broadcastInDim S11008x2048 ![] bcast_S_S11008x2048 : (⟨S_, .i32⟩ : BufTy).Contents (Elt F) → (⟨S11008x2048, .i32⟩ : BufTy).Contents (Elt F)),
    binary main_arg1 main_v12 main_v13 (andi : (⟨S11008x2048, .i32⟩ : BufTy).Contents (Elt F) → (⟨S11008x2048, .i32⟩ : BufTy).Contents (Elt F) → (⟨S11008x2048, .i32⟩ : BufTy).Contents (Elt F)),
    nullary main_c_4 (constantI S_ 32 4#32),
    unary main_c_4 main_v14 (broadcastInDim S11008x2048 ![] bcast_S_S11008x2048 : (⟨S_, .i32⟩ : BufTy).Contents (Elt F) → (⟨S11008x2048, .i32⟩ : BufTy).Contents (Elt F)),
    binary main_arg1 main_v14 main_v15 (Host.shrsi : (⟨S11008x2048, .i32⟩ : BufTy).Contents (Elt F) → (⟨S11008x2048, .i32⟩ : BufTy).Contents (Elt F) → (⟨S11008x2048, .i32⟩ : BufTy).Contents (Elt F)),
    nullary main_c_5 (constantI S_ 32 15#32),
    unary main_c_5 main_v16 (broadcastInDim S11008x2048 ![] bcast_S_S11008x2048 : (⟨S_, .i32⟩ : BufTy).Contents (Elt F) → (⟨S11008x2048, .i32⟩ : BufTy).Contents (Elt F)),
    binary main_v15 main_v16 main_v17 (andi : (⟨S11008x2048, .i32⟩ : BufTy).Contents (Elt F) → (⟨S11008x2048, .i32⟩ : BufTy).Contents (Elt F) → (⟨S11008x2048, .i32⟩ : BufTy).Contents (Elt F)),
    unary main_v13 main_v18 (broadcastInDim S11008x2048x1 ![0, 1] bcast_S11008x2048_S11008x2048x1_0_1 : (⟨S11008x2048, .i32⟩ : BufTy).Contents (Elt F) → (⟨S11008x2048x1, .i32⟩ : BufTy).Contents (Elt F)),
    unary main_v17 main_v19 (broadcastInDim S11008x2048x1 ![0, 1] bcast_S11008x2048_S11008x2048x1_0_1 : (⟨S11008x2048, .i32⟩ : BufTy).Contents (Elt F) → (⟨S11008x2048x1, .i32⟩ : BufTy).Contents (Elt F)),
    binary main_v18 main_v19 main_v20 ((fun a b => concatenate S11008x2048x2 2 [⟨S11008x2048x1, a⟩, ⟨S11008x2048x1, b⟩] concatenates_S11008x2048x1_S11008x2048x1_S11008x2048x2_d2) : (⟨S11008x2048x1, .i32⟩ : BufTy).Contents (Elt F) → (⟨S11008x2048x1, .i32⟩ : BufTy).Contents (Elt F) → (⟨S11008x2048x2, .i32⟩ : BufTy).Contents (Elt F)) ]

/-- Stretch D: the dequantised weight. -/
abbrev opsD : List (HloOp τ sig (Elt F)) :=
  [ reshape main_v20 main_v21 rfl shapeCasts_S11008x2048x2_S11008x4096,
    unary main_v21 main_v22 (sitofp .f32 : (⟨S11008x4096, .i32⟩ : BufTy).Contents (Elt F) → (⟨S11008x4096, .f32⟩ : BufTy).Contents (Elt F)),
    reshape main_v22 main_v23 rfl shapeCasts_S11008x4096_S352256x128,
    reshape main_arg3 main_v24 rfl shapeCasts_S11008x32_S352256x1,
    unary main_v24 main_v25 (sitofp .f32 : (⟨S352256x1, .i32⟩ : BufTy).Contents (Elt F) → (⟨S352256x1, .f32⟩ : BufTy).Contents (Elt F)),
    unary main_v25 main_v26 (broadcastInDim S352256x128 ![0, 1] bcast_S352256x1_S352256x128_0_1 : (⟨S352256x1, .f32⟩ : BufTy).Contents (Elt F) → (⟨S352256x128, .f32⟩ : BufTy).Contents (Elt F)),
    binary main_v23 main_v26 main_v27 (subf : (⟨S352256x128, .f32⟩ : BufTy).Contents (Elt F) → (⟨S352256x128, .f32⟩ : BufTy).Contents (Elt F) → (⟨S352256x128, .f32⟩ : BufTy).Contents (Elt F)),
    reshape main_arg2 main_v28 rfl shapeCasts_S11008x32_S352256x1,
    unary main_v28 main_v29 (broadcastInDim S352256x128 ![0, 1] bcast_S352256x1_S352256x128_0_1 : (⟨S352256x1, .f32⟩ : BufTy).Contents (Elt F) → (⟨S352256x128, .f32⟩ : BufTy).Contents (Elt F)),
    binary main_v27 main_v29 main_v30 (mulf : (⟨S352256x128, .f32⟩ : BufTy).Contents (Elt F) → (⟨S352256x128, .f32⟩ : BufTy).Contents (Elt F) → (⟨S352256x128, .f32⟩ : BufTy).Contents (Elt F)),
    reshape main_v30 main_v31 rfl shapeCasts_S352256x128_S11008x4096 ]

/-- Stretch E: the contraction and the bias. -/
abbrev opsE : List (HloOp τ sig (Elt F)) :=
  [ binary main_v11 main_v31 main_v32 ((fun l r => Host.dotGeneral dot_S4x2048x4096_S11008x4096_S4x2048x11008_2_1_01_0_n_n none l r) : (⟨S4x2048x4096, .f32⟩ : BufTy).Contents (Elt F) → (⟨S11008x4096, .f32⟩ : BufTy).Contents (Elt F) → (⟨S4x2048x11008, .f32⟩ : BufTy).Contents (Elt F)),
    unary main_arg4 main_v33 (broadcastInDim S1x1x11008 ![2] bcast_S11008_S1x1x11008_2 : (⟨S11008, .f32⟩ : BufTy).Contents (Elt F) → (⟨S1x1x11008, .f32⟩ : BufTy).Contents (Elt F)),
    unary main_v33 main_v34 (broadcastInDim S4x2048x11008 ![0, 1, 2] bcast_S1x1x11008_S4x2048x11008_0_1_2 : (⟨S1x1x11008, .f32⟩ : BufTy).Contents (Elt F) → (⟨S4x2048x11008, .f32⟩ : BufTy).Contents (Elt F)),
    binary main_v32 main_v34 main_v35 (addf : (⟨S4x2048x11008, .f32⟩ : BufTy).Contents (Elt F) → (⟨S4x2048x11008, .f32⟩ : BufTy).Contents (Elt F) → (⟨S4x2048x11008, .f32⟩ : BufTy).Contents (Elt F)) ]

set_option maxRecDepth 8192 in
/-- The operation list is the five stretches in order. -/
theorem after_split (V : Valuation τ sig (Elt F)) :
    after (ops (F := F)) V = after opsE (after opsD (after opsC (after opsB (after opsA2 (after opsA1 V))))) := rfl

/-! ## Stretch A -/

theorem A1_v1 (V : Valuation τ sig (Elt F)) (x0 : (⟨S4x2048x4096, .f32⟩ : BufTy).Contents (Elt F)) (h0 : V (Proc.devRef .tc main_arg0) = x0) :
    after (opsA1 (F := F)) V (Proc.devRef .tc main_v1) = val_main_v1 (F := F) x0 := by
  unfold opsA1; after_results; rw [h0]; rfl

theorem A1_keep (V : Valuation τ sig (Elt F)) (b : Ref sig .tc)
    (hb : b = main_arg0 ∨ b = main_arg1 ∨ b = main_arg2 ∨ b = main_arg3 ∨ b = main_arg4) :
    after (opsA1 (F := F)) V (Proc.devRef .tc b) = V (Proc.devRef .tc b) := by
  rcases hb with rfl | rfl | rfl | rfl | rfl <;> (unfold opsA1; after_results)

/-- The quantisation step as a function of the array R of row maxima: R floored at ε, over 127. -/
def stepOf (R : (⟨S4x2048, .f32⟩ : BufTy).Contents (Elt F)) : (⟨S4x2048x1, .f32⟩ : BufTy).Contents (Elt F) :=
  Host.divf
    (maximumf (broadcastInDim S4x2048x1 ![] bcast_S_S4x2048x1 (id (constant S_ .f32 0x3727C5AC#32)))
      (broadcastInDim S4x2048x1 ![0, 1] bcast_S4x2048_S4x2048x1_0_1 R))
    (broadcastInDim S4x2048x1 ![] bcast_S_S4x2048x1 (constant S_ .f32 0x42FE0000#32))

theorem v5_eq_stepOf (x0 : (⟨S4x2048x4096, .f32⟩ : BufTy).Contents (Elt F)) : val_main_v5 (F := F) x0 = stepOf (val_main_v1 (F := F) x0) := rfl
theorem v7_eq_stepOf (x0 : (⟨S4x2048x4096, .f32⟩ : BufTy).Contents (Elt F)) :
    val_main_v7 (F := F) x0
      = Host.divf x0 (broadcastInDim S4x2048x4096 ![0, 1, 2] bcast_S4x2048x1_S4x2048x4096_0_1_2 (stepOf (val_main_v1 (F := F) x0))) := rfl

/-- The second part from ANY array R of row maxima (never opened here). -/
theorem A2_v5 (V : Valuation τ sig (Elt F)) (R : (⟨S4x2048, .f32⟩ : BufTy).Contents (Elt F))
    (h1 : V (Proc.devRef .tc main_v1) = R) :
    after (opsA2 (F := F)) V (Proc.devRef .tc main_v5) = stepOf R := by
  unfold opsA2; after_results; rw [h1]; rfl

theorem A2_v7 (V : Valuation τ sig (Elt F)) (R : (⟨S4x2048, .f32⟩ : BufTy).Contents (Elt F)) (X : (⟨S4x2048x4096, .f32⟩ : BufTy).Contents (Elt F))
    (h1 : V (Proc.devRef .tc main_v1) = R) (h0 : V (Proc.devRef .tc main_arg0) = X) :
    after (opsA2 (F := F)) V (Proc.devRef .tc main_v7)
      = Host.divf X (broadcastInDim S4x2048x4096 ![0, 1, 2] bcast_S4x2048x1_S4x2048x4096_0_1_2 (stepOf R)) := by
  unfold opsA2; after_results; rw [h1, h0]; rfl

theorem A2_keep (V : Valuation τ sig (Elt F)) (b : Ref sig .tc) (hb : b = main_arg1 ∨ b = main_arg2 ∨ b = main_arg3 ∨ b = main_arg4) :
    after (opsA2 (F := F)) V (Proc.devRef .tc b) = V (Proc.devRef .tc b) := by
  rcases hb with rfl | rfl | rfl | rfl <;> (unfold opsA2; after_results)

theorem A_v5 (V : Valuation τ sig (Elt F)) :
    after (opsA2 (F := F)) (after opsA1 V) (Proc.devRef .tc main_v5) = val_main_v5 (F := F) (V (Proc.devRef .tc main_arg0)) := by
  rw [v5_eq_stepOf]; exact A2_v5 _ _ (A1_v1 _ _ rfl)

theorem A_v7 (V : Valuation τ sig (Elt F)) :
    after (opsA2 (F := F)) (after opsA1 V) (Proc.devRef .tc main_v7) = val_main_v7 (F := F) (V (Proc.devRef .tc main_arg0)) := by
  rw [v7_eq_stepOf]; exact A2_v7 _ _ _ (A1_v1 _ _ rfl) (A1_keep _ _ (.inl rfl))

theorem A_keep (V : Valuation τ sig (Elt F)) (b : Ref sig .tc) (hb : b = main_arg1 ∨ b = main_arg2 ∨ b = main_arg3 ∨ b = main_arg4) :
    after (opsA2 (F := F)) (after opsA1 V) (Proc.devRef .tc b) = V (Proc.devRef .tc b) := by
  rw [A2_keep _ _ hb]
  exact A1_keep _ _ (.inr hb)

/-! ## Stretch B -/

theorem B_v11 (V : Valuation τ sig (Elt F)) (x0 : (⟨S4x2048x4096, .f32⟩ : BufTy).Contents (Elt F)) (h7 : V (Proc.devRef .tc main_v7) = val_main_v7 (F := F) x0)
    (h5 : V (Proc.devRef .tc main_v5) = val_main_v5 (F := F) x0) :
    after (opsB (F := F)) V (Proc.devRef .tc main_v11) = val_main_v11 (F := F) x0 := by
  unfold opsB; after_results; rw [h7, h5]; rfl

theorem B_keep (V : Valuation τ sig (Elt F)) (b : Ref sig .tc) (hb : b = main_arg1 ∨ b = main_arg2 ∨ b = main_arg3 ∨ b = main_arg4) :
    after (opsB (F := F)) V (Proc.devRef .tc b) = V (Proc.devRef .tc b) := by
  rcases hb with rfl | rfl | rfl | rfl <;> (unfold opsB; after_results)

/-! ## Stretch C -/

theorem C_v20 (V : Valuation τ sig (Elt F)) (x1 : (⟨S11008x2048, .i32⟩ : BufTy).Contents (Elt F)) (h1 : V (Proc.devRef .tc main_arg1) = x1) :
    after (opsC (F := F)) V (Proc.devRef .tc main_v20) = val_main_v20 (F := F) x1 := by
  unfold opsC; after_results; rw [h1]; rfl

theorem C_keep (V : Valuation τ sig (Elt F)) (b : Ref sig .tc) (hb : b = main_v11 ∨ b = main_arg2 ∨ b = main_arg3 ∨ b = main_arg4) :
    after (opsC (F := F)) V (Proc.devRef .tc b) = V (Proc.devRef .tc b) := by
  rcases hb with rfl | rfl | rfl | rfl <;> (unfold opsC; after_results)

/-! ## Stretch D -/

theorem D_v31 (V : Valuation τ sig (Elt F)) (x1 : (⟨S11008x2048, .i32⟩ : BufTy).Contents (Elt F)) (x2 : (⟨S11008x32, .f32⟩ : BufTy).Contents (Elt F)) (x3 : (⟨S11008x32, .i32⟩ : BufTy).Contents (Elt F))
    (h20 : V (Proc.devRef .tc main_v20) = val_main_v20 (F := F) x1) (h2 : V (Proc.devRef .tc main_arg2) = x2)
    (h3 : V (Proc.devRef .tc main_arg3) = x3) :
    after (opsD (F := F)) V (Proc.devRef .tc main_v31) = val_main_v31 (F := F) x1 x2 x3 := by
  unfold opsD; after_results; rw [h20, h2, h3]; rfl

theorem D_keep (V : Valuation τ sig (Elt F)) (b : Ref sig .tc) (hb : b = main_v11 ∨ b = main_arg4) :
    after (opsD (F := F)) V (Proc.devRef .tc b) = V (Proc.devRef .tc b) := by
  rcases hb with rfl | rfl <;> (unfold opsD; after_results)

/-! ## Stretch E -/

theorem E_v35 (V : Valuation τ sig (Elt F)) (x0 : (⟨S4x2048x4096, .f32⟩ : BufTy).Contents (Elt F)) (x1 : (⟨S11008x2048, .i32⟩ : BufTy).Contents (Elt F)) (x2 : (⟨S11008x32, .f32⟩ : BufTy).Contents (Elt F)) (x3 : (⟨S11008x32, .i32⟩ : BufTy).Contents (Elt F)) (x4 : (⟨S11008, .f32⟩ : BufTy).Contents (Elt F))
    (h11 : V (Proc.devRef .tc main_v11) = val_main_v11 (F := F) x0)
    (h31 : V (Proc.devRef .tc main_v31) = val_main_v31 (F := F) x1 x2 x3) (h4 : V (Proc.devRef .tc main_arg4) = x4) :
    after (opsE (F := F)) V (Proc.devRef .tc main_v35) = val_main_v35 (F := F) x0 x1 x2 x3 x4 := by
  unfold opsE; after_results; rw [h11, h31, h4]; rfl

/-! ## The whole list -/

/-- After all 51 operations the result buffer holds the last stage of the arguments' contents. -/
theorem result (V : Valuation τ sig (Elt F)) :
    after (ops (F := F)) V (Proc.devRef .tc main_v35)
      = val_main_v35 (F := F) (V (Proc.devRef .tc main_arg0)) (V (Proc.devRef .tc main_arg1)) (V (Proc.devRef .tc main_arg2))
          (V (Proc.devRef .tc main_arg3)) (V (Proc.devRef .tc main_arg4)) := by
  rw [after_split]
  refine E_v35 _ _ _ _ _ _ ?_ ?_ ?_
  · rw [D_keep _ _ (.inl rfl), C_keep _ _ (.inl rfl)]
    exact B_v11 _ _ (A_v7 _) (A_v5 _)
  · refine D_v31 _ _ _ _ (C_v20 _ _ ?_) ?_ ?_
    · rw [B_keep _ _ (.inl rfl), A_keep _ _ (.inl rfl)]
    · rw [C_keep _ _ (.inr (.inl rfl)), B_keep _ _ (.inr (.inl rfl)), A_keep _ _ (.inr (.inl rfl))]
    · rw [C_keep _ _ (.inr (.inr (.inl rfl))), B_keep _ _ (.inr (.inr (.inl rfl))), A_keep _ _ (.inr (.inr (.inl rfl)))]
  · rw [D_keep _ _ (.inr rfl), C_keep _ _ (.inr (.inr (.inr rfl))), B_keep _ _ (.inr (.inr (.inr rfl))),
      A_keep _ _ (.inr (.inr (.inr rfl)))]

set_option maxRecDepth 8192 in
set_option maxHeartbeats 2000000 in
/-- On every device, from any memory with zero counters: every weakly fair execution of the reference terminates with
    its result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = val_main_v35 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v35).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.Spec.lean ====
/-
  The function both programs compute, index by index, on the extended reals.

  Activations: for token (b, s) the row scale is  σ(b,s) = max(ε, max_k |x(b,s,k)|) / 127  (the running maximum
  taken from -∞), and the fake-quantised activation is
      a(b,s,k) = min(127, max(-127, roundeven(x(b,s,k) / σ(b,s)))) · σ(b,s).
  Weights: output row o holds 4096 four-bit values, two to a packed word (even column = low nibble, odd column =
  bits 4..7), in 32 groups of 128 columns; with z(o,g) the group's zero point and λ(o,g) its scale,
      w(o,k) = (nibble(o,k) − z(o, k/128)) · λ(o, k/128).
  Result:  y(b,s,o) = Σ_k a(b,s,k) · w(o,k) + bias(o).
  Every operation is the one the two programs apply (the same float operation at the extended reals), so nothing
  here needs arithmetic on the extended reals beyond sums being sums.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨3, ![4, 2048, 4096]⟩
abbrev SQ : Shape := ⟨2, ![11008, 2048]⟩
abbrev SG : Shape := ⟨2, ![11008, 32]⟩
abbrev SB : Shape := ⟨1, ![11008]⟩
abbrev SY : Shape := ⟨3, ![4, 2048, 11008]⟩

/-- The largest magnitude in token (b, s)'s row, the maximum taken from -∞. -/
def rowMax (x : SX.Idx → Ideal .f32) (b : Fin 4) (s : Fin 2048) : Ideal .f32 :=
  (Finset.univ : Finset (Fin 4096)).fold (FloatOps.maximumf (F := Ideal) (φ := .f32)) (FloatOps.ofBits .f32 0xFF800000#32)
    (fun k => FloatOps.hostAbsf (x (ix3 b s k)))

/-- The token's quantisation step: the row maximum, at least ε, over 127. -/
def step (x : SX.Idx → Ideal .f32) (b : Fin 4) (s : Fin 2048) : Ideal .f32 :=
  FloatOps.hostDivf (FloatOps.maximumf (FloatOps.ofBits .f32 0x3727C5AC#32) (rowMax x b s))
    (FloatOps.ofBits .f32 0x42FE0000#32)

/-- The fake-quantised activation: round to the nearest step, clip to ±127 steps, scale back. -/
def act (x : SX.Idx → Ideal .f32) (b : Fin 4) (s : Fin 2048) (k : Fin 4096) : Ideal .f32 :=
  FloatOps.mulf
    (FloatOps.minimumf (FloatOps.ofBits .f32 0x42FE0000#32)
      (FloatOps.maximumf (FloatOps.ofBits .f32 0xC2FE0000#32)
        (FloatOps.hostUnary .roundeven (FloatOps.hostDivf (x (ix3 b s k)) (step x b s)))))
    (step x b s)

/-- Column k of row o as a four-bit value: the low nibble of word k/2 for even k, bits 4..7 for odd k. -/
def nibble (q : SQ.Idx → BitVec 32) (o : Fin 11008) (k : Fin 4096) : BitVec 32 :=
  if k.val % 2 = 0 then IntOp.andi (q (ix2 o ⟨k.val / 2, by have := k.isLt; omega⟩)) 15#32
  else IntOp.andi (IntOp.shrsi .host (q (ix2 o ⟨k.val / 2, by have := k.isLt; omega⟩)) 4#32) 15#32

/-- The dequantised weight: the nibble less its group's zero point, times the group's scale. -/
def wgt (q : SQ.Idx → BitVec 32) (sc : SG.Idx → Ideal .f32) (z : SG.Idx → BitVec 32) (o : Fin 11008) (k : Fin 4096) :
    Ideal .f32 :=
  FloatOps.mulf
    (FloatOps.subf (FloatOps.sitofp .f32 (nibble q o k))
      (FloatOps.sitofp .f32 (z (ix2 o ⟨k.val / 128, by have := k.isLt; omega⟩))))
    (sc (ix2 o ⟨k.val / 128, by have := k.isLt; omega⟩))

/-- The linear layer's output at (b, s, o). -/
def out (x : SX.Idx → Ideal .f32) (q : SQ.Idx → BitVec 32) (sc : SG.Idx → Ideal .f32) (z : SG.Idx → BitVec 32)
    (bias : SB.Idx → Ideal .f32) (b : Fin 4) (s : Fin 2048) (o : Fin 11008) : Ideal .f32 :=
  FloatOps.addf (∑ k : Fin 4096, act x b s k * wgt q sc z o k) (bias (ix1 o))

/-- The whole result array. -/
def Y (x : SX.Idx → Ideal .f32) (q : SQ.Idx → BitVec 32) (sc : SG.Idx → Ideal .f32) (z : SG.Idx → BitVec 32)
    (bias : SB.Idx → Ideal .f32) : SY.Idx → Ideal .f32 :=
  fun i => out x q sc z bias (i 0) (i 1) (i 2)

/-! ## The clip bounds: the integers ±127 converted are the f32 words for ±127.0 -/

theorem ofBits_127 : FloatOps.ofBits (F := Ideal) .f32 0x42FE0000#32 = ((127 : ℝ) : EReal) := by
  simp [Ideal.ofBits, Ideal.ieee, -EReal.coe_mul]; norm_num

theorem ofBits_neg127 : FloatOps.ofBits (F := Ideal) .f32 0xC2FE0000#32 = ((-127 : ℝ) : EReal) := by
  simp [Ideal.ofBits, Ideal.ieee, -EReal.coe_mul, -EReal.coe_neg]; norm_num

theorem sitofp_127 : FloatOps.sitofp (F := Ideal) .f32 (127#32) = FloatOps.ofBits (F := Ideal) .f32 0x42FE0000#32 := by
  rw [ofBits_127]; show (((127#32 : BitVec 32).toInt : ℝ) : EReal) = _
  rw [show (127#32 : BitVec 32).toInt = 127 by decide]; norm_num

theorem sitofp_neg127 : FloatOps.sitofp (F := Ideal) .f32 (4294967169#32) = FloatOps.ofBits (F := Ideal) .f32 0xC2FE0000#32 := by
  rw [ofBits_neg127]; show (((4294967169#32 : BitVec 32).toInt : ℝ) : EReal) = _
  rw [show (4294967169#32 : BitVec 32).toInt = -127 by decide]; norm_num

end Cert.Spec

end
-- ==== Proof.LibRowMax.lean ====
/-
  The host's maximum-reduce over the LAST axis, read at a result index, at the extended reals: for a rank-2 array
  [m, n] reduced over axis 1 and for a rank-3 array [a, b, n] reduced over axis 2, the result at a row is the fold
  of max over that row's n entries, from the initial value. General in the extents.
-/
import Idealize.ShloMosaic.PureOps.Ideal.Laws
import Idealize.ShloMosaic.PureOps.Reduce
import Idealize.ShloMosaic.Lib.ValueIdx

noncomputable section

namespace Cert.LibRowMax

open Idealize.ShloMosaic Idealize.ShloMosaic.ValueIdx

/-- Row r of a rank-2 array with column k put back is (r, k). -/
theorem lift2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Row (b, s) of a rank-3 array with the last coordinate k put back is (b, s, k). -/
theorem lift3 {a b n : Nat} (h : (⟨3, ![a, b, n]⟩ : Shape).Reduces [2] (⟨2, ![a, b]⟩ : Shape)) (p : Fin a) (q : Fin b)
    (k : Fin ((⟨3, ![a, b, n]⟩ : Shape).size 2)) : h.lift (ix2 p q) k = ix3 p q (⟨k.val, k.isLt⟩ : Fin n) := by
  funext c; apply Fin.ext
  fin_cases c <;> rfl

/-- The host's max-reduce of a rank-2 array over its columns, at row r: the fold of max over the row. -/
theorem rowMax2 {m n : Nat} {u : Shape} (x : (⟨2, ![m, n]⟩ : Shape).Idx → Ideal .f32) (init : u.Idx → Ideal .f32)
    (h' : (⟨2, ![m, n]⟩ : Shape).ReducesTo [1] (⟨1, ![m]⟩ : Shape))
    (h : (⟨2, ![m, n]⟩ : Shape).Reduces [1] (⟨1, ![m]⟩ : Shape)) (hu : 0 < u.numel) (r : Fin m) :
    Host.reduce (FloatOps.maximumf (F := Ideal) (φ := .f32)) x init h' hu (ix1 r)
      = (Finset.univ : Finset (Fin n)).fold (FloatOps.maximumf (F := Ideal) (φ := .f32)) (init (Shape.Idx.first hu))
          (fun k => x (ix2 r k)) := by
  rw [Host.reduce_eq_fold_single (FloatOps.maximumf (F := Ideal) (φ := .f32)) x init h' h hu]
  have hf : (x ∘ h.lift (ix1 r)) = fun k : Fin n => x (ix2 r k) := funext fun k => congrArg x (lift2 h r k)
  exact congrArg (fun f => Finset.fold (FloatOps.maximumf (F := Ideal) (φ := .f32)) (init (Shape.Idx.first hu)) f
    (Finset.univ : Finset (Fin n))) hf

/-- The host's max-reduce of a rank-3 array over its last axis, at (p, q): the fold of max over that line. -/
theorem rowMax3 {a b n : Nat} {u : Shape} (x : (⟨3, ![a, b, n]⟩ : Shape).Idx → Ideal .f32) (init : u.Idx → Ideal .f32)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := .f32)) x init h' hu (ix2 p q)
      = (Finset.univ : Finset (Fin n)).fold (FloatOps.maximumf (F := Ideal) (φ := .f32)) (init (Shape.Idx.first hu))
          (fun k => x (ix3 p q k)) := by
  rw [Host.reduce_eq_fold_single (FloatOps.maximumf (F := Ideal) (φ := .f32)) x init h' h hu]
  have hf : (x ∘ h.lift (ix2 p q)) = fun k : Fin n => x (ix3 p q k) := funext fun k => congrArg x (lift3 h p q k)
  exact congrArg (fun f => Finset.fold (FloatOps.maximumf (F := Ideal) (φ := .f32)) (init (Shape.Idx.first hu)) f
    (Finset.univ : Finset (Fin n))) hf

end Cert.LibRowMax

end
-- ==== Proof.RefSpec.lean ====
/-
  The reference computes the specification.

  Read stage by stage at an index, the reference's last stage at (b, s, o) is
      Σ_k  act(b,s,k) · wgt(o,k)  +  bias(o):
  the row maximum is the host's max-reduce over the last axis; the step is that maximum floored at ε, over 127; the
  activation is rounded, clipped and scaled by the step of its own token (the step array [4,2048,1] broadcast along the
  row); the clip bounds are the integers ±127 converted, which are the f32 values ±127. The weight at (o, k) is read
  through three regroupings of the flat position o·4096 + k: into (o, k/2, k%2) for the packed word and which of its
  nibbles, into (o·32 + k/128, k%128) for the group, and the group's row o·32 + k/128 of the flattened [352256, 1]
  zero-point and scale columns back into (o, k/128).
-/
import proofs.«401755_j68324339745161_3_alg».proof.Proof.RefRead
import proofs.«401755_j68324339745161_3_alg».proof.Proof.Spec
import proofs.«401755_j68324339745161_3_alg».proof.Proof.LibRowMax

noncomputable section

namespace Cert.ReferenceIdeal.RefSpec

open Cert.ReferenceIdeal Cert.ReferenceIdeal.Gen Cert.ReferenceIdeal.ReadP
open Idealize.ShloMosaic Idealize.ShloMosaic.ValueIdx

/-! ## The activation side -/

/-- The reference's row maximum at (b, s). -/
theorem rowMax_eq (x0 : FVec Ideal S4x2048x4096 .f32) (b : Fin 4) (s : Fin 2048) :
    val_main_v1 (F := Ideal) x0 (ix2 b s) = Cert.Spec.rowMax x0 b s := by
  unfold val_main_v1 Cert.Spec.rowMax
  rw [Cert.LibRowMax.rowMax3 _ _ reducesTo_S4x2048x4096_S4x2048_d2 (by decide) h_S_ b s]
  rfl

/-- The reference's quantisation step of token (b, s). -/
theorem step_eq (x0 : FVec Ideal S4x2048x4096 .f32) (b : Fin 4) (s : Fin 2048) :
    val_main_v5 (F := Ideal) x0 (ix3 b s (0 : Fin 1)) = Cert.Spec.step x0 b s := by
  have e2 : idx_main_v2 (ix3 b s (0 : Fin 1)) = ix2 b s :=
    funext fun a => Fin.ext (by match a with | ⟨0, _⟩ => rfl | ⟨1, _⟩ => rfl)
  rw [val_main_v5_apply, val_main_v3_apply, val_main_call0_v1_apply, val_main_call0_v0_apply, val_main_cst_0_apply,
    val_main_v2_apply, val_main_v4_apply, val_main_cst_1_apply, e2, rowMax_eq]
  rfl

/-- The reference's fake-quantised activation at (b, s, k). -/
theorem act_eq (x0 : FVec Ideal S4x2048x4096 .f32) (b : Fin 4) (s : Fin 2048) (k : Fin 4096) :
    val_main_v11 (F := Ideal) x0 (ix3 b s k) = Cert.Spec.act x0 b s k := by
  have e6 : idx_main_v6 (ix3 b s k) = ix3 b s (0 : Fin 1) :=
    funext fun a => Fin.ext (by match a with | ⟨0, _⟩ => rfl | ⟨1, _⟩ => rfl | ⟨2, _⟩ => rfl)
  have e10 : idx_main_v10 (ix3 b s k) = ix3 b s (0 : Fin 1) :=
    funext fun a => Fin.ext (by match a with | ⟨0, _⟩ => rfl | ⟨1, _⟩ => rfl | ⟨2, _⟩ => rfl)
  rw [val_main_v11_apply, val_main_v9_apply, val_main_call2_v4_apply, val_main_call2_v3_apply, val_main_c_2_apply,
    val_main_call2_v2_apply, val_main_call2_v1_apply, val_main_call2_v0_apply, val_main_c_apply, val_main_v8_apply,
    val_main_v7_apply, val_main_v6_apply, val_main_v10_apply, e6, e10, step_eq, Cert.Spec.sitofp_127, Cert.Spec.sitofp_neg127]
  rfl

/-! ## The weight side -/

/-- The reference's unpacked four-bit value at row o, column k. -/
theorem nibble_eq (x1 : IVec S11008x2048 32) (o : Fin 11008) (k : Fin 4096) :
    val_main_v21 (F := Ideal) x1 (ix2 o k) = Cert.Spec.nibble x1 o k := by
  have hk := k.isLt
  have ho := o.isLt
  have e18 : idx_main_v18 (ix3 o (⟨k.val / 2, by omega⟩ : Fin 2048) (0 : Fin 1)) = ix2 o (⟨k.val / 2, by omega⟩ : Fin 2048) :=
    funext fun a => Fin.ext (by match a with | ⟨0, _⟩ => rfl | ⟨1, _⟩ => rfl)
  have e19 : idx_main_v19 (ix3 o (⟨k.val / 2, by omega⟩ : Fin 2048) (0 : Fin 1)) = ix2 o (⟨k.val / 2, by omega⟩ : Fin 2048) :=
    funext fun a => Fin.ext (by match a with | ⟨0, _⟩ => rfl | ⟨1, _⟩ => rfl)
  rw [val_main_v21_apply]
  unfold val_main_v20 Cert.Spec.nibble
  by_cases hpar : k.val % 2 = 0
  · rw [if_pos hpar]
    rw [concatenate_pair_apply_left (t := S11008x2048x2) (s₁ := S11008x2048x1) (s₂ := S11008x2048x1) (2 : Fin 3) _ _ concatenates_S11008x2048x1_S11008x2048x1_S11008x2048x2_d2
      (idx_main_v21 (ix2 o k)) rfl (ix3 o (⟨k.val / 2, by omega⟩ : Fin 2048) (0 : Fin 1)) (fun b => by
        match b with
        | ⟨0, _⟩ => show o.val = (o.val * 4096 + k.val) / 4096; omega
        | ⟨1, _⟩ => show k.val / 2 = (o.val * 4096 + k.val) / 2 % 2048; omega
        | ⟨2, _⟩ => show 0 = (o.val * 4096 + k.val) % 2; omega)]
    rw [val_main_v18_apply, val_main_v13_apply, val_main_v12_apply, val_main_c_3_apply, e18]
  · rw [if_neg hpar]
    rw [concatenate_pair_apply_right (t := S11008x2048x2) (s₁ := S11008x2048x1) (s₂ := S11008x2048x1) (2 : Fin 3) _ _ concatenates_S11008x2048x1_S11008x2048x1_S11008x2048x2_d2
      (idx_main_v21 (ix2 o k)) rfl rfl (ix3 o (⟨k.val / 2, by omega⟩ : Fin 2048) (0 : Fin 1)) (fun b hb => by
        match b with
        | ⟨0, _⟩ => show o.val = (o.val * 4096 + k.val) / 4096; omega
        | ⟨1, _⟩ => show k.val / 2 = (o.val * 4096 + k.val) / 2 % 2048; omega
        | ⟨2, _⟩ => exact absurd rfl hb)
      (by show 0 + 1 = (o.val * 4096 + k.val) % 2; omega)]
    rw [val_main_v19_apply, val_main_v17_apply, val_main_v15_apply, val_main_v14_apply, val_main_c_4_apply,
      val_main_v16_apply, val_main_c_5_apply, e19]

/-- The reference's dequantised weight at row o, column k. -/
theorem wgt_eq (x1 : IVec S11008x2048 32) (x2 : FVec Ideal S11008x32 .f32) (x3 : IVec S11008x32 32) (o : Fin 11008) (k : Fin 4096) :
    val_main_v31 (F := Ideal) x1 x2 x3 (ix2 o k) = Cert.Spec.wgt x1 x2 x3 o k := by
  have hk := k.isLt
  have ho := o.isLt
  have e23 : idx_main_v23 (idx_main_v31 (ix2 o k)) = ix2 o k :=
    funext fun a => Fin.ext (by
      match a with
      | ⟨0, _⟩ => show ((o.val * 4096 + k.val) / 128 * 128 + (o.val * 4096 + k.val) % 128) / 4096 = o.val; omega
      | ⟨1, _⟩ => show ((o.val * 4096 + k.val) / 128 * 128 + (o.val * 4096 + k.val) % 128) % 4096 = k.val; omega)
  have e24 : idx_main_v24 (idx_main_v26 (idx_main_v31 (ix2 o k))) = ix2 o (⟨k.val / 128, by omega⟩ : Fin 32) :=
    funext fun a => Fin.ext (by
      match a with
      | ⟨0, _⟩ => show ((o.val * 4096 + k.val) / 128 * 1 + 0) / 32 = o.val; omega
      | ⟨1, _⟩ => show ((o.val * 4096 + k.val) / 128 * 1 + 0) % 32 = k.val / 128; omega)
  have e28 : idx_main_v28 (idx_main_v29 (idx_main_v31 (ix2 o k))) = ix2 o (⟨k.val / 128, by omega⟩ : Fin 32) :=
    funext fun a => Fin.ext (by
      match a with
      | ⟨0, _⟩ => show ((o.val * 4096 + k.val) / 128 * 1 + 0) / 32 = o.val; omega
      | ⟨1, _⟩ => show ((o.val * 4096 + k.val) / 128 * 1 + 0) % 32 = k.val / 128; omega)
  rw [val_main_v31_apply, val_main_v30_apply, val_main_v27_apply, val_main_v23_apply, val_main_v22_apply, e23, nibble_eq,
    val_main_v26_apply, val_main_v25_apply, val_main_v24_apply, e24, val_main_v29_apply, val_main_v28_apply, e28]
  rfl

/-! ## The result -/

/-- The reference's last stage is the specification's array. -/
theorem result_eq (x0 : FVec Ideal S4x2048x4096 .f32) (x1 : IVec S11008x2048 32) (x2 : FVec Ideal S11008x32 .f32)
    (x3 : IVec S11008x32 32) (x4 : FVec Ideal S11008 .f32) :
    val_main_v35 (F := Ideal) x0 x1 x2 x3 x4 = Cert.Spec.Y x0 x1 x2 x3 x4 := by
  funext i
  obtain ⟨b, s, o, rfl⟩ : ∃ (b : Fin 4) (s : Fin 2048) (o : Fin 11008), i = ix3 b s o := ⟨i 0, i 1, i 2, eq_ix3 i⟩
  have el : ∀ k : Fin 4096, lidx_main_v32 (ix3 b s o) k = ix3 b s k := fun k =>
    funext fun a => Fin.ext (by match a with | ⟨0, _⟩ => rfl | ⟨1, _⟩ => rfl | ⟨2, _⟩ => rfl)
  have er : ∀ k : Fin 4096, ridx_main_v32 (ix3 b s o) k = ix2 o k := fun k =>
    funext fun a => Fin.ext (by match a with | ⟨0, _⟩ => rfl | ⟨1, _⟩ => rfl)
  have eb : idx_main_v33 (idx_main_v34 (ix3 b s o)) = ix1 o :=
    funext fun a => Fin.ext (by match a with | ⟨0, _⟩ => rfl)
  rw [val_main_v35_apply, val_main_v32_apply, val_main_v34_apply, val_main_v33_apply, eb]
  show FloatOps.addf _ _ = FloatOps.addf _ _
  refine congrArg (fun t => FloatOps.addf t (x4 (ix1 o))) (Finset.sum_congr rfl fun k _ => ?_)
  rw [el, er, act_eq, wgt_eq]

end Cert.ReferenceIdeal.RefSpec

end
-- ==== Proof.KBody.lean ====
/-
  What the pallas_call leaves in its result array.

  The body at a grid point (i, j) multiplies the point's 1024 activation rows by the point's 512 weight rows over all
  4096 columns (into a zero accumulator: at the extended reals a plain sum of products), adds the point's 512 bias
  entries to every row, and stores the [1024, 512] tile whole. Block (i, j) of the result is rows 1024·i … and columns
  512·j …; the activation block is rows 1024·i … of the first operand, the weight block rows 512·j … of the second, the
  bias block entries 512·j … of the third. So every tile is the restriction of ONE array
      P(r, c) = Σ_k A(r, k) · W(c, k) + B(0, c),
  and as the 8 × 22 tiles cover [8192, 11264], that array is what the call leaves.
-/
import proofs.«401755_j68324339745161_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KBody

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at an index -/

theorem lhs_0 (i : S1024x512.Idx) (q : dot_S1024x4096_S512x4096_S1024x512_1_1_0_0_n_n.contr.Idx) : (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_1 (i : S1024x512.Idx) (q : dot_S1024x4096_S512x4096_S1024x512_1_1_0_0_n_n.contr.Idx) : (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_0 (i : S1024x512.Idx) (q : dot_S1024x4096_S512x4096_S1024x512_1_1_0_0_n_n.contr.Idx) : (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_1 (i : S1024x512.Idx) (q : dot_S1024x4096_S512x4096_S1024x512_1_1_0_0_n_n.contr.Idx) : (dot_S1024x4096_S512x4096_S1024x512_1_1_0_0_n_n.rhsIdx i q 1).val = (q ⟨0, by decide⟩).val :=
  dot_S1024x4096_S512x4096_S1024x512_1_1_0_0_n_n.rhsIdx_val_of_single rfl i q

/-- The stored tile at (p, q): row p of the activation block against row q of the weight block, plus bias entry q. -/
theorem pay_apply (v0 : Vec Ideal S1024x4096 .bf16) (v2 : Vec Ideal S512x4096 .bf16) (v5 : Vec Ideal S1x512 .f32) (j : S1024x512.Idx) :
    k0_pay1 (F := Ideal) v0 v2 v5 j
      = (∑ k : Fin 4096, v0 (ix2 (⟨(j 0).val, (j 0).isLt⟩ : Fin 1024) k) * v2 (ix2 (⟨(j 1).val, (j 1).isLt⟩ : Fin 512) k))
          + v5 (ix2 (0 : Fin 1) (⟨(j 1).val, (j 1).isLt⟩ : Fin 512)) := by
  unfold k0_pay1
  show FloatOps.addf (F := Ideal)
      (FloatOps.matmul (F := Ideal) dot_S1024x4096_S512x4096_S1024x512_1_1_0_0_n_n none (shapeCast S1024x4096 v0 shapeCasts_S1024x4096_S1024x4096)
        (shapeCast S512x4096 v2 shapeCasts_S512x4096_S512x4096) (constant S1024x512 .f32 0x00000000#32) j)
      (broadcastTo S1024x512 (shapeCast S1x512 (v5 : FVec Ideal S1x512 .f32) shapeCasts_S1x512_S1x512) broadcasts_S1x512_S1024x512 j) = _
  rw [shapeCast_self, shapeCast_self, shapeCast_self, Ideal.matmul_constant_zero_apply,
    broadcastTo_apply (v5 : FVec Ideal S1x512 .f32) broadcasts_S1x512_S1024x512 j (ix2 (0 : Fin 1) (⟨(j 1).val, (j 1).isLt⟩ : Fin 512)) (fun a => by
      match a with
      | ⟨0, _⟩ => show 0 = if (1 : Nat) = 1 then 0 else (j 0).val; rw [if_pos rfl]
      | ⟨1, _⟩ => show (j 1).val = if (512 : Nat) = 1 then 0 else (j 1).val; rw [if_neg (by decide)]),
    ← Equiv.sum_comp (ValueIdx.contrEquiv1 dot_S1024x4096_S512x4096_S1024x512_1_1_0_0_n_n 4096 rfl rfl).symm]
  show (∑ k : Fin 4096, _) + _ = _
  refine congrArg (· + v5 (ix2 (0 : Fin 1) (⟨(j 1).val, (j 1).isLt⟩ : Fin 512))) (Finset.sum_congr rfl fun k _ => ?_)
  have hk := ValueIdx.contrEquiv1_symm_val dot_S1024x4096_S512x4096_S1024x512_1_1_0_0_n_n 4096 rfl rfl k
  have el : dot_S1024x4096_S512x4096_S1024x512_1_1_0_0_n_n.lhsIdx j ((ValueIdx.contrEquiv1 dot_S1024x4096_S512x4096_S1024x512_1_1_0_0_n_n 4096 rfl rfl).symm k) = ix2 (⟨(j 0).val, (j 0).isLt⟩ : Fin 1024) k :=
    funext fun a => Fin.ext (by
      match a with
      | ⟨0, _⟩ => exact lhs_0 _ _
      | ⟨1, _⟩ => exact (lhs_1 _ _).trans hk)
  have er : dot_S1024x4096_S512x4096_S1024x512_1_1_0_0_n_n.rhsIdx j ((ValueIdx.contrEquiv1 dot_S1024x4096_S512x4096_S1024x512_1_1_0_0_n_n 4096 rfl rfl).symm k) = ix2 (⟨(j 1).val, (j 1).isLt⟩ : Fin 512) k :=
    funext fun a => Fin.ext (by
      match a with
      | ⟨0, _⟩ => exact rhs_0 _ _
      | ⟨1, _⟩ => exact (rhs_1 _ _).trans hk)
  rw [el, er]

/-! ## One array for all tiles -/

/-- P(r, c) = Σ_k A(r, k) · W(c, k) + B(0, c). -/
def prod (A : S8192x4096.Idx → Ideal .bf16) (W : S11264x4096.Idx → Ideal .bf16) (B : S1x11264.Idx → Ideal .f32) :
    S8192x11264.Idx → Ideal .f32 :=
  fun i => (∑ k : Fin 4096, A (ix2 (⟨(i 0).val, (i 0).isLt⟩ : Fin 8192) k) * W (ix2 (⟨(i 1).val, (i 1).isLt⟩ : Fin 11264) k))
    + B (ix2 (0 : Fin 1) (⟨(i 1).val, (i 1).isLt⟩ : Fin 11264))

variable (m : (ℓ : Loc nD τ sig) → Buf (Elt Ideal) ℓ)

theorem hz : (![0, 0] : Fin 2 → Nat) = fun _ => 0 := funext fun a => by fin_cases a <;> rfl

/-- The printed index maps over the grid: the activation block moves with the tile's row block, the weight and bias
    blocks with its column block; the other block coordinates are 0. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7 ∧ win0_3.index t (1 : Fin 2) ≤ 21 :=
  (by decide +kernel : ∀ t : Fin grid0.N, _)

/-- Every tile position is some point's. -/
theorem idx_onto : ∀ (q0 : Fin 8) (q1 : Fin 22), ∃ t : Fin cfg0.N, win0_3.index t = ![q0.val, q1.val] :=
  (by decide +kernel : ∀ (q0 : Fin 8) (q1 : Fin 22), ∃ t : Fin grid0.N, win0_3.index t = ![q0.val, q1.val])

set_option maxHeartbeats 4000000 in
/-- What point t writes back is tile t of P of the three operands as the region finds them. -/
theorem flushed_eq (c : Dev nD) (t : Fin cfg0.N) :
    (dats m 0 c).flushed 3 t
      = ((cfg0.win 3).blk t).view.read (Elt Ideal) (prod (V m c main_v13) (V m c main_v35) (V m c main_v37)) := by
  show (cfg0.win 3).cut (grid0.coords t) ((dats m 0 c).after 3 t) = _
  rw [after0_3]
  unfold out0_3
  rw [View.canon_unit_zero hz]
  simp only [View.ld_unit_zero (S := S1024x4096) hz, View.ld_unit_zero (S := S512x4096) hz, View.ld_unit_zero (S := S1x512) hz]
  obtain ⟨e0, e1, e2, e3, e4, e5, e6, e7⟩ := idx_facts t
  funext j
  show k0_pay1 (F := Ideal) (iblk m c 0 t) (iblk m c 1 t) (iblk m c 2 t) j
    = prod (V m c main_v13) (V m c main_v35) (V m c main_v37) (((cfg0.win 3).blk t).view.emb j)
  refine (pay_apply (iblk m c 0 t) (iblk m c 1 t) (iblk m c 2 t) j).trans ?_
  unfold prod
  have hj0 : (j 0).val < 1024 := (j 0).isLt
  have hj1 : (j 1).val < 512 := (j 1).isLt
  have hA : ∀ k : Fin 4096, iblk m c 0 t (ix2 (⟨(j 0).val, (j 0).isLt⟩ : Fin 1024) k)
      = V m c main_v13 (ix2 (⟨((((cfg0.win 3).blk t).view.emb j) 0).val, ((((cfg0.win 3).blk t).view.emb j) 0).isLt⟩ : Fin 8192) k) := fun k => by
    show V m c main_v13 (((cfg0.win 0).blk t).view.emb (ix2 (⟨(j 0).val, (j 0).isLt⟩ : Fin 1024) k)) = _
    refine congrArg (V m c main_v13) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  have hW : ∀ k : Fin 4096, iblk m c 1 t (ix2 (⟨(j 1).val, (j 1).isLt⟩ : Fin 512) k)
      = V m c main_v35 (ix2 (⟨((((cfg0.win 3).blk t).view.emb j) 1).val, ((((cfg0.win 3).blk t).view.emb j) 1).isLt⟩ : Fin 11264) k) := fun k => by
    show V m c main_v35 (((cfg0.win 1).blk t).view.emb (ix2 (⟨(j 1).val, (j 1).isLt⟩ : Fin 512) k)) = _
    refine congrArg (V m c main_v35) (funext fun a => Fin.ext ?_)
    match a with
    | ⟨0, _⟩ => show win0_1.index t (0 : Fin 2) * 512 + 1 * (j 1).val = win0_3.index t (1 : Fin 2) * 512 + 1 * (j 1).val; omega
    | ⟨1, _⟩ => show win0_1.index t (1 : Fin 2) * 4096 + 1 * k.val = k.val; omega
  have hB : iblk m c 2 t (ix2 (0 : Fin 1) (⟨(j 1).val, (j 1).isLt⟩ : Fin 512))
      = V m c main_v37 (ix2 (0 : Fin 1) (⟨((((cfg0.win 3).blk t).view.emb j) 1).val, ((((cfg0.win 3).blk t).view.emb j) 1).isLt⟩ : Fin 11264)) := by
    show V m c main_v37 (((cfg0.win 2).blk t).view.emb (ix2 (0 : Fin 1) (⟨(j 1).val, (j 1).isLt⟩ : Fin 512))) = _
    refine congrArg (V m c main_v37) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega
  rw [hB]
  exact congrArg (· + _) (Finset.sum_congr rfl fun k _ => by rw [hA k, hW k])

/-- An index of the result array is in point t's tile iff each coordinate is in the tile's range. -/
theorem mem_blk (t : Fin cfg0.N) (i : S8192x11264.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v38).slice (win0_3.rect t)).set ↔ _
  rw [View.set_slice_whole, Rect.mem_set_unit]
  exact Iff.rfl

/-- The tiles cover the result array: (r, c) is in the tile at (r / 1024, c / 512). -/
theorem cover (i : S8192x11264.Idx) : ∃ t : Fin cfg0.N, (cfg0.win 3).flush t = true ∧ i ∈ ((cfg0.win 3).blk t).view.set := by
  have hi0 : (i 0).val < 8192 := (i 0).isLt
  have hi1 : (i 1).val < 11264 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the call. -/
theorem final (c : Dev nD) :
    (dats m 0 c).arrAt 3 cfg0.N = prod (V m c main_v13) (V m c main_v35) (V m c main_v37) :=
  (dats m 0 c).arrAt_eq_of_cover 3 _ (fun t _ => flushed_eq m c t) cover

end Cert.KernelIdeal.KBody

end
-- ==== Proof.KHost.lean ====
/-
  The kernel program's host operations BEFORE its one pallas_call, as pure functions of the argument arrays.

  The 57 operations prepare the call's three operands: (1) the activations flattened to [8192, 4096], their row maxima,
  the per-row quantisation step (maximum floored at ε, over 127), the activation divided by its row's step, rounded,
  clipped to ±127, multiplied back by the step and narrowed to bf16; (2) the packed words' two nibbles side by side,
  as floats regrouped by 128, less the group's zero point, times the group's scale, laid back as [11008, 4096], padded
  with 256 further rows and narrowed to bf16; (3) the bias padded with 256 further entries, as one row [1, 11264].
  The list is read in stretches, each from ANY buffer contents; the stretch after the row maximum takes the array of
  maxima as a variable, so that no comparison of terms here ever looks inside the reduction.
-/
import proofs.«401755_j68324339745161_3_alg».proof.Proof.Gen.KernelIdeal.Frame
import Idealize.ShloMosaic.Lib.StableHlo.Run

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-! ## The stretches -/

/-- The activations flattened. -/
abbrev opsQ1a : List (HloOp τ sig (Elt F)) :=
  [ StableHlo.reshape main_arg0 main_v0 rfl shapeCasts_S4x2048x4096_S8192x4096 ]

/-- Magnitudes and their row maximum. -/
abbrev opsQ1b : List (HloOp τ sig (Elt F)) :=
  [ StableHlo.unary main_v0 main_v1 (Host.absf : (⟨S8192x4096, .f32⟩ : BufTy).Contents (Elt F) → (⟨S8192x4096, .f32⟩ : BufTy).Contents (Elt F)),
    StableHlo.nullary main_cst (constant S_ .f32 0xFF800000#32),
    StableHlo.binary main_v1 main_cst main_v2 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)) ]

/-- The quantisation step; divide, round, clip. -/
abbrev opsQ2 : List (HloOp τ sig (Elt F)) :=
  [ StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x3727C5AC#32),
    StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8192x1, .f32⟩) (broadcastInDim S8192x1 ![] bcast_S_S8192x1),
    StableHlo.TRef.binary (.of main_call0_v1 : StableHlo.TRef sig ⟨S8192x1, .f32⟩) (.of main_v3 : StableHlo.TRef sig ⟨S8192x1, .f32⟩) (.of main_v4 : StableHlo.TRef sig ⟨S8192x1, .f32⟩) maximumf,
    StableHlo.nullary main_cst_1 (constant S_ .f32 0x42FE0000#32),
    StableHlo.unary main_cst_1 main_v5 (broadcastInDim S8192x1 ![] bcast_S_S8192x1 : (⟨S_, .f32⟩ : BufTy).Contents (Elt F) → (⟨S8192x1, .f32⟩ : BufTy).Contents (Elt F)),
    StableHlo.binary main_v4 main_v5 main_v6 (Host.divf : (⟨S8192x1, .f32⟩ : BufTy).Contents (Elt F) → (⟨S8192x1, .f32⟩ : BufTy).Contents (Elt F) → (⟨S8192x1, .f32⟩ : BufTy).Contents (Elt F)),
    StableHlo.unary main_v6 main_v7 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v0 main_v7 main_v8 (Host.divf : (⟨S8192x4096, .f32⟩ : BufTy).Contents (Elt F) → (⟨S8192x4096, .f32⟩ : BufTy).Contents (Elt F) → (⟨S8192x4096, .f32⟩ : BufTy).Contents (Elt F)),
    StableHlo.TRef.unary (.of main_v8 : StableHlo.TRef sig ⟨S8192x4096, .f32⟩) (.of main_v9 : StableHlo.TRef sig ⟨S8192x4096, .f32⟩) Host.roundeven,
    StableHlo.nullary main_cst_2 (constant S_ .f32 0xC2FE0000#32),
    StableHlo.nullary main_cst_3 (constant S_ .f32 0x42FE0000#32),
    StableHlo.TRef.unary (.of main_cst_2 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8192x4096, .f32⟩) (broadcastInDim S8192x4096 ![] bcast_S_S8192x4096),
    StableHlo.TRef.binary (.of main_call2_v1 : StableHlo.TRef sig ⟨S8192x4096, .f32⟩) (.of main_v9 : StableHlo.TRef sig ⟨S8192x4096, .f32⟩) (.of main_call2_v2 : StableHlo.TRef sig ⟨S8192x4096, .f32⟩) maximumf,
    StableHlo.TRef.unary (.of main_cst_3 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S8192x4096, .f32⟩) (broadcastInDim S8192x4096 ![] bcast_S_S8192x4096),
    StableHlo.TRef.binary (.of main_call2_v4 : StableHlo.TRef sig ⟨S8192x4096, .f32⟩) (.of main_call2_v2 : StableHlo.TRef sig ⟨S8192x4096, .f32⟩) (.of main_v10 : StableHlo.TRef sig ⟨S8192x4096, .f32⟩) minimumf ]

/-- Scale back and narrow. -/
abbrev opsQ3 : List (HloOp τ sig (Elt F)) :=
  [ StableHlo.unary main_v6 main_v11 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v10 main_v11 main_v12 (mulf : (⟨S8192x4096, .f32⟩ : BufTy).Contents (Elt F) → (⟨S8192x4096, .f32⟩ : BufTy).Contents (Elt F) → (⟨S8192x4096, .f32⟩ : BufTy).Contents (Elt F)),
    StableHlo.unary main_v12 main_v13 ((truncf .bf16 · bitsLt_bf16_f32) : (⟨S8192x4096, .f32⟩ : BufTy).Contents (Elt F) → (⟨S8192x4096, .bf16⟩ : BufTy).Contents (Elt F)) ]

/-- The unpacked nibbles. -/
abbrev opsQ4a : List (HloOp τ sig (Elt F)) :=
  [ StableHlo.nullary main_c (constantI S_ 32 15#32),
    StableHlo.unary main_c main_v14 (broadcastInDim S11008x2048 ![] bcast_S_S11008x2048 : (⟨S_, .i32⟩ : BufTy).Contents (Elt F) → (⟨S11008x2048, .i32⟩ : BufTy).Contents (Elt F)),
    StableHlo.binary main_arg1 main_v14 main_v15 (andi : (⟨S11008x2048, .i32⟩ : BufTy).Contents (Elt F) → (⟨S11008x2048, .i32⟩ : BufTy).Contents (Elt F) → (⟨S11008x2048, .i32⟩ : BufTy).Contents (Elt F)),
    StableHlo.nullary main_c_4 (constantI S_ 32 4#32),
    StableHlo.unary main_c_4 main_v16 (broadcastInDim S11008x2048 ![] bcast_S_S11008x2048 : (⟨S_, .i32⟩ : BufTy).Contents (Elt F) → (⟨S11008x2048, .i32⟩ : BufTy).Contents (Elt F)),
    StableHlo.binary main_arg1 main_v16 main_v17 (Host.shrsi : (⟨S11008x2048, .i32⟩ : BufTy).Contents (Elt F) → (⟨S11008x2048, .i32⟩ : BufTy).Contents (Elt F) → (⟨S11008x2048, .i32⟩ : BufTy).Contents (Elt F)),
    StableHlo.nullary main_c_5 (constantI S_ 32 15#32),
    StableHlo.unary main_c_5 main_v18 (broadcastInDim S11008x2048 ![] bcast_S_S11008x2048 : (⟨S_, .i32⟩ : BufTy).Contents (Elt F) → (⟨S11008x2048, .i32⟩ : BufTy).Contents (Elt F)),
    StableHlo.binary main_v17 main_v18 main_v19 (andi : (⟨S11008x2048, .i32⟩ : BufTy).Contents (Elt F) → (⟨S11008x2048, .i32⟩ : BufTy).Contents (Elt F) → (⟨S11008x2048, .i32⟩ : BufTy).Contents (Elt F)),
    StableHlo.unary main_v15 main_v20 (broadcastInDim S11008x2048x1 ![0, 1] bcast_S11008x2048_S11008x2048x1_0_1 : (⟨S11008x2048, .i32⟩ : BufTy).Contents (Elt F) → (⟨S11008x2048x1, .i32⟩ : BufTy).Contents (Elt F)),
    StableHlo.unary main_v19 main_v21 (broadcastInDim S11008x2048x1 ![0, 1] bcast_S11008x2048_S11008x2048x1_0_1 : (⟨S11008x2048, .i32⟩ : BufTy).Contents (Elt F) → (⟨S11008x2048x1, .i32⟩ : BufTy).Contents (Elt F)),
    StableHlo.binary main_v20 main_v21 main_v22 ((fun a b => concatenate S11008x2048x2 2 [⟨S11008x2048x1, a⟩, ⟨S11008x2048x1, b⟩] concatenates_S11008x2048x1_S11008x2048x1_S11008x2048x2_d2) : (⟨S11008x2048x1, .i32⟩ : BufTy).Contents (Elt F) → (⟨S11008x2048x1, .i32⟩ : BufTy).Contents (Elt F) → (⟨S11008x2048x2, .i32⟩ : BufTy).Contents (Elt F)),
    StableHlo.reshape main_v22 main_v23 rfl shapeCasts_S11008x2048x2_S11008x4096 ]

/-- The dequantised weight from the nibbles. -/
abbrev opsQ4b : List (HloOp τ sig (Elt F)) :=
  [ StableHlo.unary main_v23 main_v24 (sitofp .f32 : (⟨S11008x4096, .i32⟩ : BufTy).Contents (Elt F) → (⟨S11008x4096, .f32⟩ : BufTy).Contents (Elt F)),
    StableHlo.reshape main_v24 main_v25 rfl shapeCasts_S11008x4096_S11008x32x128,
    StableHlo.unary main_arg3 main_v26 (sitofp .f32 : (⟨S11008x32, .i32⟩ : BufTy).Contents (Elt F) → (⟨S11008x32, .f32⟩ : BufTy).Contents (Elt F)),
    StableHlo.unary main_v26 main_v27 (broadcastInDim S11008x32x1 ![0, 1] bcast_S11008x32_S11008x32x1_0_1 : (⟨S11008x32, .f32⟩ : BufTy).Contents (Elt F) → (⟨S11008x32x1, .f32⟩ : BufTy).Contents (Elt F)),
    StableHlo.unary main_arg2 main_v28 (broadcastInDim S11008x32x1 ![0, 1] bcast_S11008x32_S11008x32x1_0_1 : (⟨S11008x32, .f32⟩ : BufTy).Contents (Elt F) → (⟨S11008x32x1, .f32⟩ : BufTy).Contents (Elt F)),
    StableHlo.unary main_v27 main_v29 (broadcastInDim S11008x32x128 ![0, 1, 2] bcast_S11008x32x1_S11008x32x128_0_1_2 : (⟨S11008x32x1, .f32⟩ : BufTy).Contents (Elt F) → (⟨S11008x32x128, .f32⟩ : BufTy).Contents (Elt F)),
    StableHlo.binary main_v25 main_v29 main_v30 (subf : (⟨S11008x32x128, .f32⟩ : BufTy).Contents (Elt F) → (⟨S11008x32x128, .f32⟩ : BufTy).Contents (Elt F) → (⟨S11008x32x128, .f32⟩ : BufTy).Contents (Elt F)),
    StableHlo.unary main_v28 main_v31 (broadcastInDim S11008x32x128 ![0, 1, 2] bcast_S11008x32x1_S11008x32x128_0_1_2 : (⟨S11008x32x1, .f32⟩ : BufTy).Contents (Elt F) → (⟨S11008x32x128, .f32⟩ : BufTy).Contents (Elt F)),
    StableHlo.binary main_v30 main_v31 main_v32 (mulf : (⟨S11008x32x128, .f32⟩ : BufTy).Contents (Elt F) → (⟨S11008x32x128, .f32⟩ : BufTy).Contents (Elt F) → (⟨S11008x32x128, .f32⟩ : BufTy).Contents (Elt F)),
    StableHlo.reshape main_v32 main_v33 rfl shapeCasts_S11008x32x128_S11008x4096,
    StableHlo.nullary main_c_6 (constantI S_ 32 0#32) ]

/-- Padding of the weight and of the bias. -/
abbrev opsQ5 : List (HloOp τ sig (Elt F)) :=
  [ StableHlo.TRef.unary (.of main_c_6 : StableHlo.TRef sig ⟨S_, .i32⟩) (.of main_call3_v0 : StableHlo.TRef sig ⟨S_, .f32⟩) (sitofp .f32),
    StableHlo.TRef.binary (.of main_v33 : StableHlo.TRef sig ⟨S11008x4096, .f32⟩) (.of main_call3_v0 : StableHlo.TRef sig ⟨S_, .f32⟩) (.of main_v34 : StableHlo.TRef sig ⟨S11264x4096, .f32⟩) (fun x v => pad S11264x4096 ![0, 0] ![256, 0] ![0, 0] x v pads_S11008x4096_S11264x4096_02560_000 h_S_),
    StableHlo.unary main_v34 main_v35 ((truncf .bf16 · bitsLt_bf16_f32) : (⟨S11264x4096, .f32⟩ : BufTy).Contents (Elt F) → (⟨S11264x4096, .bf16⟩ : BufTy).Contents (Elt F)),
    StableHlo.nullary main_c_7 (constantI S_ 32 0#32),
    StableHlo.TRef.unary (.of main_c_7 : StableHlo.TRef sig ⟨S_, .i32⟩) (.of main_call4_v0 : StableHlo.TRef sig ⟨S_, .f32⟩) (sitofp .f32),
    StableHlo.TRef.binary (.of main_arg4 : StableHlo.TRef sig ⟨S11008, .f32⟩) (.of main_call4_v0 : StableHlo.TRef sig ⟨S_, .f32⟩) (.of main_v36 : StableHlo.TRef sig ⟨S11264, .f32⟩) (fun x v => pad S11264 ![0] ![256] ![0] x v pads_S11008_S11264_02560 h_S_),
    StableHlo.reshape main_v36 main_v37 rfl shapeCasts_S11264_S1x11264 ]

/-! ## The operands as functions of the arguments -/

/-- The activations as [8192, 4096]: token (b, s) is row 2048·b + s. -/
def kx (x0 : (⟨S4x2048x4096, .f32⟩ : BufTy).Contents (Elt F)) : (⟨S8192x4096, .f32⟩ : BufTy).Contents (Elt F) :=
  shapeCast S8192x4096 x0 shapeCasts_S4x2048x4096_S8192x4096

/-- The row maxima of the magnitudes of X, from -∞. -/
def kmaxOf (X : (⟨S8192x4096, .f32⟩ : BufTy).Contents (Elt F)) : (⟨S8192, .f32⟩ : BufTy).Contents (Elt F) :=
  Host.reduce FloatOps.maximumf (Host.absf X) (constant S_ .f32 0xFF800000#32) reducesTo_S8192x4096_S8192_d1 h_S_

/-- The per-row quantisation step from the row maxima R: R floored at ε, over 127, as a column. -/
def kstepOf (R : (⟨S8192, .f32⟩ : BufTy).Contents (Elt F)) : (⟨S8192x1, .f32⟩ : BufTy).Contents (Elt F) :=
  Host.divf
    (maximumf (broadcastInDim S8192x1 ![] bcast_S_S8192x1 (id (constant S_ .f32 0x3727C5AC#32)))
      (broadcastInDim S8192x1 ![0] bcast_S8192_S8192x1_0 R))
    (broadcastInDim S8192x1 ![] bcast_S_S8192x1 (constant S_ .f32 0x42FE0000#32))

/-- X divided by its row's step, rounded to even, clipped to ±127. -/
def kclipOf (X : (⟨S8192x4096, .f32⟩ : BufTy).Contents (Elt F)) (S : (⟨S8192x1, .f32⟩ : BufTy).Contents (Elt F)) : (⟨S8192x4096, .f32⟩ : BufTy).Contents (Elt F) :=
  minimumf (broadcastInDim S8192x4096 ![] bcast_S_S8192x4096 (id (constant S_ .f32 0x42FE0000#32)))
    (maximumf (broadcastInDim S8192x4096 ![] bcast_S_S8192x4096 (id (constant S_ .f32 0xC2FE0000#32)))
      (Host.roundeven (Host.divf X (broadcastInDim S8192x4096 ![0, 1] bcast_S8192x1_S8192x4096_0_1 S))))

/-- The clipped steps scaled back by the row's step, narrowed to bf16. -/
def kactOf (Cl : (⟨S8192x4096, .f32⟩ : BufTy).Contents (Elt F)) (S : (⟨S8192x1, .f32⟩ : BufTy).Contents (Elt F)) : (⟨S8192x4096, .bf16⟩ : BufTy).Contents (Elt F) :=
  truncf .bf16 (mulf Cl (broadcastInDim S8192x4096 ![0, 1] bcast_S8192x1_S8192x4096_0_1 S)) bitsLt_bf16_f32

/-- The call's first operand. -/
def kact (x0 : (⟨S4x2048x4096, .f32⟩ : BufTy).Contents (Elt F)) : (⟨S8192x4096, .bf16⟩ : BufTy).Contents (Elt F) :=
  kactOf (kclipOf (kx x0) (kstepOf (kmaxOf (kx x0)))) (kstepOf (kmaxOf (kx x0)))

/-- The unpacked four-bit values [11008, 4096]: word (o, j)'s low nibble at column 2j, bits 4..7 at column 2j+1. -/
def knib (x1 : (⟨S11008x2048, .i32⟩ : BufTy).Contents (Elt F)) : (⟨S11008x4096, .i32⟩ : BufTy).Contents (Elt F) :=
  shapeCast S11008x4096
    (concatenate S11008x2048x2 2
      [⟨S11008x2048x1, broadcastInDim S11008x2048x1 ![0, 1] bcast_S11008x2048_S11008x2048x1_0_1
          (andi x1 (broadcastInDim S11008x2048 ![] bcast_S_S11008x2048 (constantI S_ 32 15#32)))⟩,
       ⟨S11008x2048x1, broadcastInDim S11008x2048x1 ![0, 1] bcast_S11008x2048_S11008x2048x1_0_1
          (andi (Host.shrsi x1 (broadcastInDim S11008x2048 ![] bcast_S_S11008x2048 (constantI S_ 32 4#32)))
            (broadcastInDim S11008x2048 ![] bcast_S_S11008x2048 (constantI S_ 32 15#32)))⟩]
      concatenates_S11008x2048x1_S11008x2048x1_S11008x2048x2_d2)
    shapeCasts_S11008x2048x2_S11008x4096

/-- The dequantised weight [11008, 4096] from the array N of four-bit values. -/
def kwOf (N : (⟨S11008x4096, .i32⟩ : BufTy).Contents (Elt F)) (x2 : (⟨S11008x32, .f32⟩ : BufTy).Contents (Elt F)) (x3 : (⟨S11008x32, .i32⟩ : BufTy).Contents (Elt F)) : (⟨S11008x4096, .f32⟩ : BufTy).Contents (Elt F) :=
  shapeCast S11008x4096
    (mulf
      (subf (shapeCast S11008x32x128 (sitofp (F := F) .f32 N) shapeCasts_S11008x4096_S11008x32x128)
        (broadcastInDim S11008x32x128 ![0, 1, 2] bcast_S11008x32x1_S11008x32x128_0_1_2
          (broadcastInDim S11008x32x1 ![0, 1] bcast_S11008x32_S11008x32x1_0_1 (sitofp (F := F) .f32 x3))))
      (broadcastInDim S11008x32x128 ![0, 1, 2] bcast_S11008x32x1_S11008x32x128_0_1_2
        (broadcastInDim S11008x32x1 ![0, 1] bcast_S11008x32_S11008x32x1_0_1 x2)))
    shapeCasts_S11008x32x128_S11008x4096

/-- The dequantised weight of the arguments. -/
def kw (x1 : (⟨S11008x2048, .i32⟩ : BufTy).Contents (Elt F)) (x2 : (⟨S11008x32, .f32⟩ : BufTy).Contents (Elt F)) (x3 : (⟨S11008x32, .i32⟩ : BufTy).Contents (Elt F)) : (⟨S11008x4096, .f32⟩ : BufTy).Contents (Elt F) :=
  kwOf (F := F) (knib (F := F) x1) x2 x3

/-- A weight W padded with 256 rows of (float) zero and narrowed to bf16: the call's second operand. -/
def kwpOf (W : (⟨S11008x4096, .f32⟩ : BufTy).Contents (Elt F)) : (⟨S11264x4096, .bf16⟩ : BufTy).Contents (Elt F) :=
  truncf .bf16
    (pad S11264x4096 ![0, 0] ![256, 0] ![0, 0] W (sitofp (F := F) .f32 (constantI S_ 32 0#32))
      pads_S11008x4096_S11264x4096_02560_000 h_S_)
    bitsLt_bf16_f32

/-- The bias padded with 256 entries of (float) zero, as one row: the call's third operand. -/
def kb (x4 : (⟨S11008, .f32⟩ : BufTy).Contents (Elt F)) : (⟨S1x11264, .f32⟩ : BufTy).Contents (Elt F) :=
  shapeCast S1x11264
    (pad S11264 ![0] ![256] ![0] x4 (sitofp (F := F) .f32 (constantI S_ 32 0#32)) pads_S11008_S11264_02560 h_S_)
    shapeCasts_S11264_S1x11264

/-! ## Each stretch from any contents -/

theorem Q1a_v0 (V : Valuation τ sig (Elt F)) (x0 : (⟨S4x2048x4096, .f32⟩ : BufTy).Contents (Elt F)) (h0 : V (Proc.devRef .tc main_arg0) = x0) :
    after (opsQ1a (F := F)) V (Proc.devRef .tc main_v0) = kx (F := F) x0 := by
  unfold opsQ1a; after_results; rw [h0]; rfl

theorem Q1a_keep (V : Valuation τ sig (Elt F)) (b : Ref sig .tc) (hb : b = main_arg1 ∨ b = main_arg2 ∨ b = main_arg3 ∨ b = main_arg4) :
    after (opsQ1a (F := F)) V (Proc.devRef .tc b) = V (Proc.devRef .tc b) := by
  rcases hb with rfl | rfl | rfl | rfl <;> (unfold opsQ1a; after_results)

theorem Q1b_v2 (V : Valuation τ sig (Elt F)) (X : (⟨S8192x4096, .f32⟩ : BufTy).Contents (Elt F)) (h : V (Proc.devRef .tc main_v0) = X) :
    after (opsQ1b (F := F)) V (Proc.devRef .tc main_v2) = kmaxOf (F := F) X := by
  unfold opsQ1b; after_results; rw [h]; rfl

theorem Q1b_keep (V : Valuation τ sig (Elt F)) (b : Ref sig .tc)
    (hb : b = main_v0 ∨ b = main_arg1 ∨ b = main_arg2 ∨ b = main_arg3 ∨ b = main_arg4) :
    after (opsQ1b (F := F)) V (Proc.devRef .tc b) = V (Proc.devRef .tc b) := by
  rcases hb with rfl | rfl | rfl | rfl | rfl <;> (unfold opsQ1b; after_results)

theorem Q2_v6 (V : Valuation τ sig (Elt F)) (R : (⟨S8192, .f32⟩ : BufTy).Contents (Elt F)) (h2 : V (Proc.devRef .tc main_v2) = R) :
    after (opsQ2 (F := F)) V (Proc.devRef .tc main_v6) = kstepOf (F := F) R := by
  unfold opsQ2; after_results; rw [h2]; rfl

theorem Q2_v10 (V : Valuation τ sig (Elt F)) (X : (⟨S8192x4096, .f32⟩ : BufTy).Contents (Elt F)) (R : (⟨S8192, .f32⟩ : BufTy).Contents (Elt F))
    (h0 : V (Proc.devRef .tc main_v0) = X) (h2 : V (Proc.devRef .tc main_v2) = R) :
    after (opsQ2 (F := F)) V (Proc.devRef .tc main_v10) = kclipOf (F := F) X (kstepOf (F := F) R) := by
  unfold opsQ2; after_results; rw [h0, h2]; rfl

theorem Q2_keep (V : Valuation τ sig (Elt F)) (b : Ref sig .tc) (hb : b = main_arg1 ∨ b = main_arg2 ∨ b = main_arg3 ∨ b = main_arg4) :
    after (opsQ2 (F := F)) V (Proc.devRef .tc b) = V (Proc.devRef .tc b) := by
  rcases hb with rfl | rfl | rfl | rfl <;> (unfold opsQ2; after_results)

theorem Q3_v13 (V : Valuation τ sig (Elt F)) (Cl : (⟨S8192x4096, .f32⟩ : BufTy).Contents (Elt F)) (S : (⟨S8192x1, .f32⟩ : BufTy).Contents (Elt F))
    (h10 : V (Proc.devRef .tc main_v10) = Cl) (h6 : V (Proc.devRef .tc main_v6) = S) :
    after (opsQ3 (F := F)) V (Proc.devRef .tc main_v13) = kactOf (F := F) Cl S := by
  unfold opsQ3; after_results; rw [h10, h6]; rfl

theorem Q3_keep (V : Valuation τ sig (Elt F)) (b : Ref sig .tc) (hb : b = main_arg1 ∨ b = main_arg2 ∨ b = main_arg3 ∨ b = main_arg4) :
    after (opsQ3 (F := F)) V (Proc.devRef .tc b) = V (Proc.devRef .tc b) := by
  rcases hb with rfl | rfl | rfl | rfl <;> (unfold opsQ3; after_results)

theorem Q4a_v23 (V : Valuation τ sig (Elt F)) (x1 : (⟨S11008x2048, .i32⟩ : BufTy).Contents (Elt F)) (h1 : V (Proc.devRef .tc main_arg1) = x1) :
    after (opsQ4a (F := F)) V (Proc.devRef .tc main_v23) = knib (F := F) x1 := by
  unfold opsQ4a; after_results; rw [h1]; rfl

theorem Q4a_keep (V : Valuation τ sig (Elt F)) (b : Ref sig .tc) (hb : b = main_v13 ∨ b = main_arg2 ∨ b = main_arg3 ∨ b = main_arg4) :
    after (opsQ4a (F := F)) V (Proc.devRef .tc b) = V (Proc.devRef .tc b) := by
  rcases hb with rfl | rfl | rfl | rfl <;> (unfold opsQ4a; after_results)

theorem Q4b_v33 (V : Valuation τ sig (Elt F)) (N : (⟨S11008x4096, .i32⟩ : BufTy).Contents (Elt F)) (x2 : (⟨S11008x32, .f32⟩ : BufTy).Contents (Elt F)) (x3 : (⟨S11008x32, .i32⟩ : BufTy).Contents (Elt F))
    (h23 : V (Proc.devRef .tc main_v23) = N) (h2 : V (Proc.devRef .tc main_arg2) = x2) (h3 : V (Proc.devRef .tc main_arg3) = x3) :
    after (opsQ4b (F := F)) V (Proc.devRef .tc main_v33) = kwOf (F := F) N x2 x3 := by
  unfold opsQ4b; after_results; rw [h23, h2, h3]; rfl

theorem Q4b_c6 (V : Valuation τ sig (Elt F)) :
    after (opsQ4b (F := F)) V (Proc.devRef .tc main_c_6) = constantI S_ 32 0#32 := by
  unfold opsQ4b; after_results

theorem Q4b_keep (V : Valuation τ sig (Elt F)) (b : Ref sig .tc) (hb : b = main_v13 ∨ b = main_arg4) :
    after (opsQ4b (F := F)) V (Proc.devRef .tc b) = V (Proc.devRef .tc b) := by
  rcases hb with rfl | rfl <;> (unfold opsQ4b; after_results)

theorem Q5_v35 (V : Valuation τ sig (Elt F)) (W : (⟨S11008x4096, .f32⟩ : BufTy).Contents (Elt F)) (h33 : V (Proc.devRef .tc main_v33) = W)
    (hc : V (Proc.devRef .tc main_c_6) = constantI S_ 32 0#32) :
    after (opsQ5 (F := F)) V (Proc.devRef .tc main_v35) = kwpOf (F := F) W := by
  unfold opsQ5; after_results; rw [h33, hc]; rfl

theorem Q5_v37 (V : Valuation τ sig (Elt F)) (x4 : (⟨S11008, .f32⟩ : BufTy).Contents (Elt F)) (h4 : V (Proc.devRef .tc main_arg4) = x4) :
    after (opsQ5 (F := F)) V (Proc.devRef .tc main_v37) = kb (F := F) x4 := by
  unfold opsQ5; after_results; rw [h4]; rfl

theorem Q5_keep (V : Valuation τ sig (Elt F)) :
    after (opsQ5 (F := F)) V (Proc.devRef .tc main_v13) = V (Proc.devRef .tc main_v13) := by
  unfold opsQ5; after_results

/-! ## The whole prefix -/

set_option maxRecDepth 8192 in
/-- The host prefix is the six stretches in order. -/
theorem prefix_split (V : Valuation τ sig (Elt F)) :
    after (List.flatten [hostOps0, hostOps0_1, hostOps0_2, hostOps0_3, hostOps0_4, hostOps0_5, hostOps0_6, hostOps0_7, hostOps0_8,
        hostOps0_9, hostOps0_10] : List (HloOp τ sig (Elt F))) V
      = after opsQ5 (after opsQ4b (after opsQ4a (after opsQ3 (after opsQ2 (after opsQ1b (after opsQ1a V)))))) := rfl

variable (m : (ℓ : Loc nD τ sig) → Buf (Elt F) ℓ)

/-- The call's first operand as the region finds it. -/
theorem V_v13 (c : Dev nD) : V m c main_v13 = kact (F := F) (m ((c : Thread nD τ).loc main_arg0)) := by
  show after _ _ (Proc.devRef .tc main_v13) = _
  rw [prefix_split, Q5_keep, Q4b_keep _ _ (.inl rfl), Q4a_keep _ _ (.inl rfl)]
  unfold kact
  refine Q3_v13 _ _ _ (Q2_v10 _ _ _ ?_ ?_) (Q2_v6 _ _ ?_)
  · rw [Q1b_keep _ _ (.inl rfl)]; exact Q1a_v0 _ _ rfl
  · exact Q1b_v2 _ _ (Q1a_v0 _ _ rfl)
  · exact Q1b_v2 _ _ (Q1a_v0 _ _ rfl)

/-- The call's second operand as the region finds it. -/
theorem V_v35 (c : Dev nD) :
    V m c main_v35 = kwpOf (F := F) (kw (F := F) (m ((c : Thread nD τ).loc main_arg1)) (m ((c : Thread nD τ).loc main_arg2))
      (m ((c : Thread nD τ).loc main_arg3))) := by
  show after _ _ (Proc.devRef .tc main_v35) = _
  rw [prefix_split]
  unfold kw
  refine Q5_v35 _ _ (Q4b_v33 _ _ _ _ (Q4a_v23 _ _ ?_) ?_ ?_) (Q4b_c6 _)
  · rw [Q3_keep _ _ (.inl rfl), Q2_keep _ _ (.inl rfl), Q1b_keep _ _ (.inr (.inl rfl)), Q1a_keep _ _ (.inl rfl)]
  · rw [Q4a_keep _ _ (.inr (.inl rfl)), Q3_keep _ _ (.inr (.inl rfl)), Q2_keep _ _ (.inr (.inl rfl)), Q1b_keep _ _ (.inr (.inr (.inl rfl))), Q1a_keep _ _ (.inr (.inl rfl))]
  · rw [Q4a_keep _ _ (.inr (.inr (.inl rfl))), Q3_keep _ _ (.inr (.inr (.inl rfl))), Q2_keep _ _ (.inr (.inr (.inl rfl))), Q1b_keep _ _ (.inr (.inr (.inr (.inl rfl)))),
      Q1a_keep _ _ (.inr (.inr (.inl rfl)))]

/-- The call's third operand as the region finds it. -/
theorem V_v37 (c : Dev nD) : V m c main_v37 = kb (F := F) (m ((c : Thread nD τ).loc main_arg4)) := by
  show after _ _ (Proc.devRef .tc main_v37) = _
  rw [prefix_split]
  refine Q5_v37 _ _ ?_
  rw [Q4b_keep _ _ (.inr rfl), Q4a_keep _ _ (.inr (.inr (.inr rfl))), Q3_keep _ _ (.inr (.inr (.inr rfl))), Q2_keep _ _ (.inr (.inr (.inr rfl))),
    Q1b_keep _ _ (.inr (.inr (.inr (.inr rfl)))), Q1a_keep _ _ (.inr (.inr (.inr rfl)))]

end Cert.KernelIdeal.KHost

end
-- ==== Proof.KSpec.lean ====
/-
  The call's three operands, read at an index, are the specification's arrays.

  Row r = 2048·b + s of the flattened activations is token (b, s): its maximum, step and fake-quantised entries are the
  specification's. Row o < 11008 of the padded weight is the specification's weight row o — column k read through the
  regroupings (o, k/2, k%2) for the packed word and its nibble and (o, k/128, k%128) for the group — and entry o of
  the padded bias row is bias(o). (Rows and entries from 11008 on are the padding; nothing below reads them.)
-/
import proofs.«401755_j68324339745161_3_alg».proof.Proof.KHost
import proofs.«401755_j68324339745161_3_alg».proof.Proof.Spec
import proofs.«401755_j68324339745161_3_alg».proof.Proof.LibRowMax
import Idealize.ShloMosaic.Lib.Pipeline.Value
import Idealize.ShloMosaic.Lib.ValueIdx
import Idealize.ShloMosaic.Lib.IdealHost
import Idealize.ShloMosaic.Lib.KernelVsHost

noncomputable section

namespace Cert.KernelIdeal.KSpec

open Cert.KernelIdeal Cert.KernelIdeal.Gen Cert.KernelIdeal.KHost
open Idealize.ShloMosaic Idealize.ShloMosaic.ValueIdx

/-- Token (b, s)'s row of the flattened activations. -/
def row (b : Fin 4) (s : Fin 2048) : Fin 8192 := ⟨b.val * 2048 + s.val, by have := b.isLt; have := s.isLt; omega⟩

theorem row_val (b : Fin 4) (s : Fin 2048) : (row b s).val = b.val * 2048 + s.val := rfl

/-! ## The activation operand -/

theorem kx_apply (x0 : FVec Ideal S4x2048x4096 .f32) (b : Fin 4) (s : Fin 2048) (k : Fin 4096) :
    kx (F := Ideal) x0 (ix2 (row b s) k) = x0 (ix3 b s k) := by
  unfold kx
  exact shapeCast_apply x0 shapeCasts_S4x2048x4096_S8192x4096 (ix2 (row b s) k) (ix3 b s k) (by
    rw [Shape.rowMajor_val_three, Shape.rowMajor_val_two]
    show (b.val * 2048 + s.val) * 4096 + k.val = (b.val * 2048 + s.val) * 4096 + k.val
    rfl)

theorem kmax_apply (x0 : FVec Ideal S4x2048x4096 .f32) (b : Fin 4) (s : Fin 2048) :
    kmaxOf (F := Ideal) (kx (F := Ideal) x0) (ix1 (row b s)) = Cert.Spec.rowMax x0 b s := by
  unfold kmaxOf Cert.Spec.rowMax
  rw [Cert.LibRowMax.rowMax2 _ _ reducesTo_S8192x4096_S8192_d1 (by decide) h_S_ (row b s)]
  have e : (fun k : Fin 4096 => (Host.absf (kx (F := Ideal) x0) : S8192x4096.Idx → Ideal .f32) (ix2 (row b s) k))
      = fun k : Fin 4096 => FloatOps.hostAbsf (x0 (ix3 b s k)) :=
    funext fun k => by
      show FloatOps.hostAbsf (F := Ideal) (φ := .f32) (kx (F := Ideal) x0 (ix2 (row b s) k)) = _
      rw [kx_apply]
  rw [e]
  rfl

-- from here on the row maximum is only ever used through `kmax_apply`
attribute [local irreducible] kmaxOf

/-- The host's division and rounding read at an index (the definitions are pointwise). -/
theorem hdivf_apply {s : Shape} (a b : s.Idx → Ideal .f32) (i : s.Idx) :
    (Host.divf (F := Ideal) (s := s) (φ := .f32) a b) i = FloatOps.hostDivf (F := Ideal) (φ := .f32) (a i) (b i) := rfl
theorem hround_apply {s : Shape} (a : s.Idx → Ideal .f32) (i : s.Idx) :
    (Host.roundeven (F := Ideal) (s := s) (φ := .f32) a) i = FloatOps.hostUnary (F := Ideal) (φ := .f32) .roundeven (a i) := rfl

/-- The step column at row 2048·b + s. -/
theorem kstep_apply (x0 : FVec Ideal S4x2048x4096 .f32) (b : Fin 4) (s : Fin 2048) :
    kstepOf (F := Ideal) (kmaxOf (F := Ideal) (kx (F := Ideal) x0)) (ix2 (row b s) (0 : Fin 1)) = Cert.Spec.step x0 b s := by
  have hcol : ∀ R : S8192.Idx → Ideal .f32,
      broadcastInDim S8192x1 ![0] bcast_S8192_S8192x1_0 R (ix2 (row b s) (0 : Fin 1)) = R (ix1 (row b s)) := fun R =>
    broadcastInDim_apply ![0] bcast_S8192_S8192x1_0 R (ix2 (row b s) (0 : Fin 1)) (ix1 (row b s)) (fun a => by
      match a with
      | ⟨0, _⟩ => show (row b s).val = if (8192 : Nat) = 1 then 0 else (row b s).val; rw [if_neg (by decide)])
  unfold kstepOf
  rw [hdivf_apply, maximumf_apply, broadcastInDim_scalar_apply, broadcastInDim_scalar_apply, hcol, kmax_apply]
  rfl

attribute [local irreducible] kstepOf

/-- The first operand at row 2048·b + s, column k, is the fake-quantised activation of token (b, s). -/
theorem kact_apply (x0 : FVec Ideal S4x2048x4096 .f32) (b : Fin 4) (s : Fin 2048) (k : Fin 4096) :
    kact (F := Ideal) x0 (ix2 (row b s) k) = Cert.Spec.act x0 b s k := by
  have hS : ∀ S : S8192x1.Idx → Ideal .f32,
      broadcastInDim S8192x4096 ![0, 1] bcast_S8192x1_S8192x4096_0_1 S (ix2 (row b s) k) = S (ix2 (row b s) (0 : Fin 1)) := fun S =>
    broadcastInDim_apply ![0, 1] bcast_S8192x1_S8192x4096_0_1 S (ix2 (row b s) k) (ix2 (row b s) (0 : Fin 1)) (fun a => by
      match a with
      | ⟨0, _⟩ => show (row b s).val = if (8192 : Nat) = 1 then 0 else (row b s).val; rw [if_neg (by decide)]
      | ⟨1, _⟩ => show 0 = if (1 : Nat) = 1 then 0 else k.val; rw [if_pos rfl])
  unfold kact kactOf kclipOf
  rw [truncf_apply, mulf_apply, minimumf_apply, maximumf_apply, hround_apply, hdivf_apply, broadcastInDim_scalar_apply,
    broadcastInDim_scalar_apply, hS, kx_apply, kstep_apply]
  rfl

/-! ## The weight operand -/

theorem knib_apply (x1 : IVec S11008x2048 32) (o : Fin 11008) (k : Fin 4096) :
    knib (F := Ideal) x1 (ix2 o k) = Cert.Spec.nibble x1 o k := by
  have hk := k.isLt
  have ho := o.isLt
  have hB : ∀ A : S11008x2048.Idx → BitVec 32,
      broadcastInDim S11008x2048x1 ![0, 1] bcast_S11008x2048_S11008x2048x1_0_1 A
          (ix3 o (⟨k.val / 2, by omega⟩ : Fin 2048) (0 : Fin 1)) = A (ix2 o (⟨k.val / 2, by omega⟩ : Fin 2048)) := fun A =>
    broadcastInDim_apply ![0, 1] bcast_S11008x2048_S11008x2048x1_0_1 A _ _ (fun a => by
      match a with
      | ⟨0, _⟩ => show o.val = if (11008 : Nat) = 1 then 0 else o.val; rw [if_neg (by decide)]
      | ⟨1, _⟩ => show k.val / 2 = if (2048 : Nat) = 1 then 0 else k.val / 2; rw [if_neg (by decide)])
  unfold knib
  rw [shapeCast_apply _ shapeCasts_S11008x2048x2_S11008x4096 (ix2 o k)
    (ix3 o (⟨k.val / 2, by omega⟩ : Fin 2048) (⟨k.val % 2, by omega⟩ : Fin 2)) (by
      rw [Shape.rowMajor_val_three, Shape.rowMajor_val_two]
      show (o.val * 2048 + k.val / 2) * 2 + k.val % 2 = o.val * 4096 + k.val
      omega)]
  unfold Cert.Spec.nibble
  by_cases hpar : k.val % 2 = 0
  · rw [if_pos hpar]
    rw [concatenate_pair_apply_left (t := S11008x2048x2) (s₁ := S11008x2048x1) (s₂ := S11008x2048x1) (2 : Fin 3) _ _
      concatenates_S11008x2048x1_S11008x2048x1_S11008x2048x2_d2 _ rfl (ix3 o (⟨k.val / 2, by omega⟩ : Fin 2048) (0 : Fin 1)) (fun b => by
        match b with
        | ⟨0, _⟩ => rfl
        | ⟨1, _⟩ => rfl
        | ⟨2, _⟩ => show 0 = k.val % 2; omega), hB]
    show IntOp.andi (x1 _) (broadcastInDim S11008x2048 ![] bcast_S_S11008x2048 (constantI S_ 32 15#32) _) = _
    rw [broadcastInDim_scalar_apply]
    rfl
  · rw [if_neg hpar]
    rw [concatenate_pair_apply_right (t := S11008x2048x2) (s₁ := S11008x2048x1) (s₂ := S11008x2048x1) (2 : Fin 3) _ _
      concatenates_S11008x2048x1_S11008x2048x1_S11008x2048x2_d2 _ rfl rfl (ix3 o (⟨k.val / 2, by omega⟩ : Fin 2048) (0 : Fin 1)) (fun b hb => by
        match b with
        | ⟨0, _⟩ => rfl
        | ⟨1, _⟩ => rfl
        | ⟨2, _⟩ => exact absurd rfl hb)
      (by show 0 + 1 = k.val % 2; omega), hB]
    show IntOp.andi (IntOp.shrsi .host (x1 _) (broadcastInDim S11008x2048 ![] bcast_S_S11008x2048 (constantI S_ 32 4#32) _))
      (broadcastInDim S11008x2048 ![] bcast_S_S11008x2048 (constantI S_ 32 15#32) _) = _
    rw [broadcastInDim_scalar_apply, broadcastInDim_scalar_apply]
    rfl

theorem kw_apply (x1 : IVec S11008x2048 32) (x2 : FVec Ideal S11008x32 .f32) (x3 : IVec S11008x32 32) (o : Fin 11008) (k : Fin 4096) :
    kw (F := Ideal) x1 x2 x3 (ix2 o k) = Cert.Spec.wgt x1 x2 x3 o k := by
  have hk := k.isLt
  have ho := o.isLt
  have hG : ∀ Z : S11008x32.Idx → Ideal .f32,
      broadcastInDim S11008x32x128 ![0, 1, 2] bcast_S11008x32x1_S11008x32x128_0_1_2
          (broadcastInDim S11008x32x1 ![0, 1] bcast_S11008x32_S11008x32x1_0_1 Z)
          (ix3 o (⟨k.val / 128, by omega⟩ : Fin 32) (⟨k.val % 128, by omega⟩ : Fin 128))
        = Z (ix2 o (⟨k.val / 128, by omega⟩ : Fin 32)) := fun Z => by
    rw [broadcastInDim_apply ![0, 1, 2] bcast_S11008x32x1_S11008x32x128_0_1_2 _ _ (ix3 o (⟨k.val / 128, by omega⟩ : Fin 32) (0 : Fin 1)) (fun a => by
        match a with
        | ⟨0, _⟩ => show o.val = if (11008 : Nat) = 1 then 0 else o.val; rw [if_neg (by decide)]
        | ⟨1, _⟩ => show k.val / 128 = if (32 : Nat) = 1 then 0 else k.val / 128; rw [if_neg (by decide)]
        | ⟨2, _⟩ => show 0 = if (1 : Nat) = 1 then 0 else k.val % 128; rw [if_pos rfl]),
      broadcastInDim_apply ![0, 1] bcast_S11008x32_S11008x32x1_0_1 _ _ (ix2 o (⟨k.val / 128, by omega⟩ : Fin 32)) (fun a => by
        match a with
        | ⟨0, _⟩ => show o.val = if (11008 : Nat) = 1 then 0 else o.val; rw [if_neg (by decide)]
        | ⟨1, _⟩ => show k.val / 128 = if (32 : Nat) = 1 then 0 else k.val / 128; rw [if_neg (by decide)])]
  unfold kw kwOf Cert.Spec.wgt
  rw [shapeCast_apply _ shapeCasts_S11008x32x128_S11008x4096 (ix2 o k)
    (ix3 o (⟨k.val / 128, by omega⟩ : Fin 32) (⟨k.val % 128, by omega⟩ : Fin 128)) (by
      rw [Shape.rowMajor_val_three, Shape.rowMajor_val_two]
      show (o.val * 32 + k.val / 128) * 128 + k.val % 128 = o.val * 4096 + k.val
      omega)]
  show FloatOps.mulf (F := Ideal) (φ := .f32)
      (FloatOps.subf (F := Ideal) (φ := .f32)
        (shapeCast S11008x32x128 (sitofp (F := Ideal) .f32 (knib (F := Ideal) x1)) shapeCasts_S11008x4096_S11008x32x128
          (ix3 o (⟨k.val / 128, by omega⟩ : Fin 32) (⟨k.val % 128, by omega⟩ : Fin 128)))
        (broadcastInDim S11008x32x128 ![0, 1, 2] bcast_S11008x32x1_S11008x32x128_0_1_2
          (broadcastInDim S11008x32x1 ![0, 1] bcast_S11008x32_S11008x32x1_0_1 (sitofp (F := Ideal) .f32 x3))
          (ix3 o (⟨k.val / 128, by omega⟩ : Fin 32) (⟨k.val % 128, by omega⟩ : Fin 128))))
      (broadcastInDim S11008x32x128 ![0, 1, 2] bcast_S11008x32x1_S11008x32x128_0_1_2
        (broadcastInDim S11008x32x1 ![0, 1] bcast_S11008x32_S11008x32x1_0_1 x2)
        (ix3 o (⟨k.val / 128, by omega⟩ : Fin 32) (⟨k.val % 128, by omega⟩ : Fin 128))) = _
  rw [hG, hG, shapeCast_apply _ shapeCasts_S11008x4096_S11008x32x128 _ (ix2 o k) (by
      rw [Shape.rowMajor_val_three, Shape.rowMajor_val_two]
      show o.val * 4096 + k.val = (o.val * 32 + k.val / 128) * 128 + k.val % 128
      omega)]
  show FloatOps.mulf (F := Ideal) (φ := .f32) (FloatOps.subf (F := Ideal) (φ := .f32) (FloatOps.sitofp (F := Ideal) .f32 (knib (F := Ideal) x1 (ix2 o k))) (FloatOps.sitofp (F := Ideal) .f32 (x3 _))) (x2 _) = _
  rw [knib_apply]

/-- The second operand at a row below 11008 is the weight's row (narrowing changes nothing at the extended reals). -/
theorem kwp_apply (W : FVec Ideal S11008x4096 .f32) (o' : Fin 11264) (o : Fin 11008) (ho : o'.val = o.val) (k : Fin 4096) :
    kwpOf (F := Ideal) W (ix2 o' k) = W (ix2 o k) := by
  unfold kwpOf
  show FloatOps.truncf (F := Ideal) (φ := .f32) .bf16 bitsLt_bf16_f32
    (pad S11264x4096 ![0, 0] ![256, 0] ![0, 0] W (sitofp (F := Ideal) .f32 (constantI S_ 32 0#32))
      pads_S11008x4096_S11264x4096_02560_000 h_S_ (ix2 o' k)) = _
  rw [pad_apply_of_inside ![0, 0] ![256, 0] ![0, 0] W _ pads_S11008x4096_S11264x4096_02560_000 h_S_ (ix2 o' k) (ix2 o k) (fun a => by
    match a with
    | ⟨0, _⟩ => show o'.val = 0 + o.val * (0 + 1); omega
    | ⟨1, _⟩ => show k.val = 0 + k.val * (0 + 1); omega)]
  rfl

/-! ## The bias operand -/

/-- The third operand at an entry below 11008 is the bias there. -/
theorem kb_apply (x4 : FVec Ideal S11008 .f32) (o' : Fin 11264) (o : Fin 11008) (ho : o'.val = o.val) :
    kb (F := Ideal) x4 (ix2 (0 : Fin 1) o') = x4 (ix1 o) := by
  unfold kb
  rw [shapeCast_apply _ shapeCasts_S11264_S1x11264 (ix2 (0 : Fin 1) o') (ix1 o') (by
      rw [Shape.rowMajor_val_one, Shape.rowMajor_val_two]
      show o'.val = 0 * 11264 + o'.val
      omega),
    pad_apply_of_inside ![0] ![256] ![0] x4 _ pads_S11008_S11264_02560 h_S_ (ix1 o') (ix1 o) (fun a => by
      match a with
      | ⟨0, _⟩ => show o'.val = 0 + o.val * (0 + 1); omega)]

end Cert.KernelIdeal.KSpec

end
-- ==== Proof.KRun.lean ====
/-
  The kernel program's run: its result is the specification's array.

  After the pallas_call two host operations remain: the first 11008 columns of the [8192, 11264] result are kept, and
  the rows are regrouped as [4, 2048, 11008]. So the result at (b, s, o) is the product array P at row 2048·b + s and
  column o < 11008, and there the three operands are the fake-quantised activation of token (b, s), weight row o and
  bias entry o: the specification's value. The padded rows and entries are never read.
-/
import proofs.«401755_j68324339745161_3_alg».proof.Proof.KBody
import proofs.«401755_j68324339745161_3_alg».proof.Proof.KSpec

set_option maxRecDepth 16384

noncomputable section

namespace Cert.KernelIdeal.KRun

open Cert.KernelIdeal Cert.KernelIdeal.Gen Cert.KernelIdeal.KHost Cert.KernelIdeal.KBody Cert.KernelIdeal.KSpec
open Idealize.ShloMosaic Idealize.ShloMosaic.TcCoe Idealize.ShloMosaic.ValueIdx Idealize.SL.Sem Idealize.ShloMosaic.StableHlo

/-! ## The two host operations after the call, read at an index -/

/-- Keeping the first 11008 columns and regrouping the rows: entry (b, s, o) is entry (2048·b + s, o) of the array. -/
theorem tail_apply (P : S8192x11264.Idx → Ideal .f32) (b : Fin 4) (s : Fin 2048) (o : Fin 11008) :
    shapeCast S4x2048x11008 (extractStridedSlice S8192x11008 ![0, 0] P slices_S8192x11264_S8192x11008_0_0)
        shapeCasts_S8192x11008_S4x2048x11008 (ix3 b s o)
      = P (ix2 (row b s) (⟨o.val, by have := o.isLt; omega⟩ : Fin 11264)) := by
  rw [shapeCast_apply _ shapeCasts_S8192x11008_S4x2048x11008 (ix3 b s o) (ix2 (row b s) o) (by
      rw [Shape.rowMajor_val_three, Shape.rowMajor_val_two]
      show (b.val * 2048 + s.val) * 11008 + o.val = (b.val * 2048 + s.val) * 11008 + o.val
      rfl),
    extractStridedSlice_apply ![0, 0] P slices_S8192x11264_S8192x11008_0_0 (ix2 (row b s) o)
      (ix2 (row b s) (⟨o.val, by have := o.isLt; omega⟩ : Fin 11264)) (fun a => by
        match a with
        | ⟨0, _⟩ => show (row b s).val = 0 + (row b s).val; omega
        | ⟨1, _⟩ => show o.val = 0 + o.val; omega)]

/-- The product array of the three operands at row 2048·b + s and a column o < 11008 is the specification's value. -/
theorem prod_apply (x0 : FVec Ideal S4x2048x4096 .f32) (x1 : IVec S11008x2048 32) (x2 : FVec Ideal S11008x32 .f32)
    (x3 : IVec S11008x32 32) (x4 : FVec Ideal S11008 .f32) (b : Fin 4) (s : Fin 2048) (o : Fin 11008) :
    prod (kact (F := Ideal) x0) (kwpOf (F := Ideal) (kw (F := Ideal) x1 x2 x3)) (kb (F := Ideal) x4)
        (ix2 (row b s) (⟨o.val, by have := o.isLt; omega⟩ : Fin 11264))
      = Cert.Spec.out x0 x1 x2 x3 x4 b s o := by
  unfold prod Cert.Spec.out
  show (∑ k : Fin 4096, kact (F := Ideal) x0 (ix2 (row b s) k)
        * kwpOf (F := Ideal) (kw (F := Ideal) x1 x2 x3) (ix2 (⟨o.val, by have := o.isLt; omega⟩ : Fin 11264) k))
      + kb (F := Ideal) x4 (ix2 (0 : Fin 1) (⟨o.val, by have := o.isLt; omega⟩ : Fin 11264)) = _
  rw [kb_apply x4 _ o rfl]
  refine congrArg (· + x4 (ix1 o)) (Finset.sum_congr rfl fun k _ => ?_)
  rw [kact_apply, kwp_apply _ _ o rfl, kw_apply]

variable (m : (ℓ : Loc nD τ sig) → Buf (Elt Ideal) ℓ) (ρ : Dev nD → PrngReg)

/-! ## The result buffer after the whole program -/

/-- What the two operations after the call leave in the result buffer, over the call's result array. -/
theorem tail_eq (c : Dev nD) :
    Pipeline.afterTail₀ cfgs (dats m) 0 (V0 m) [hostOps1] c main_v40
      = shapeCast S4x2048x11008 (extractStridedSlice S8192x11008 ![0, 0] ((dats m 0 c).arrAt 3 cfg0.N)
          slices_S8192x11264_S8192x11008_0_0) shapeCasts_S8192x11008_S4x2048x11008 := by
  have hw : Pipeline.withArrays spec0 c (V0 m c) (fun w => (dats m 0 c).arrAt w cfg0.N) (Proc.devRef .tc main_v38)
      = (dats m 0 c).arrAt 3 cfg0.N := Pipeline.withArrays_arr spec0 launch0.win.arr_inj c _ _ 3
  unfold Pipeline.afterTail₀
  show StableHlo.after hostOps1 _ (Proc.devRef .tc main_v40) = _
  after_results
  rw [hw]
  rfl

/-- The result buffer holds the specification's array of the arguments. -/
theorem result_eq (c : Dev nD) :
    Pipeline.afterTail₀ cfgs (dats m) 0 (V0 m) [hostOps1] c main_v40
      = Cert.Spec.Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [tail_eq, KBody.final, V_v13, V_v35, V_v37]
  funext i
  obtain ⟨b, s, o, rfl⟩ : ∃ (b : Fin 4) (s : Fin 2048) (o : Fin 11008), i = ix3 b s o := ⟨i 0, i 1, i 2, eq_ix3 i⟩
  rw [tail_apply, prod_apply]
  rfl

/-! ## The run -/

/-- Every weakly fair execution of the kernel program terminates with its result at the specification's array of the
    arguments and the arguments unchanged. -/
theorem run : θ_run defs (onTc (τ := τ) (main (F := Ideal))) ⟨m, fun _ => 0, ρ⟩ (fun r => ∀ c : Dev nD,
      r.2.mem ((c.tc : Thread nD τ).loc main_v40)
        = Cert.Spec.Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v40 (Pipeline.mem_restRefs_of main_v40 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KRun

end
-- ==== Proof.lean ====
/-
  A 4-bit-weight, 8-bit-activation linear layer: the Pallas kernel program against its jnp reference, over the
  extended reals.

  Both programs compute, for token (b, s) and output feature o,
      y(b,s,o) = Σ_k a(b,s,k) · w(o,k) + bias(o),
  where a is the activation rounded to a per-token grid of step σ(b,s) = max(ε, max_k |x(b,s,k)|) / 127, clipped to
  ±127 steps and scaled back, and w(o,k) = (nibble(o,k) − zero(o, k/128)) · scale(o, k/128) is the dequantised weight
  (Proof/Spec.lean). They differ only in layout: the kernel program flattens the tokens to 8192 rows, keeps the groups
  of 128 columns as a third axis, pads the 11008 weight rows and bias entries to 11264 for its 8 × 22 grid of
  [1024, 512] tiles, narrows the two matrix operands to bf16 (the identity at the extended reals), and cuts the padding
  off again; the reference keeps the tokens as [4, 2048], regroups the weight as [352256, 128] rows, and contracts in
  one dot_general. The clip bounds are the f32 words for ±127 in one program and the converted integers ±127 in the
  other: the same numbers. No law of arithmetic beyond "a sum of products is a sum of products" is needed, so the
  precondition (finite inputs) is never opened.

  Reference: its run stretch by stretch (Proof/RefRun.lean) ends at its last stage, which read index by index is the
  specification (Proof/RefSpec.lean). Kernel program: the host operations before the call give the three operands
  (Proof/KHost.lean), which at an index are the specification's activation, weight and bias (Proof/KSpec.lean); every
  tile the call stores is the restriction of one product array, and the tiles cover it (Proof/KBody.lean); the slice
  and regrouping after the call read that array at (2048·b + s, o) (Proof/KRun.lean).
-/
import proofs.«401755_j68324339745161_3_alg».proof.Defs
import proofs.«401755_j68324339745161_3_alg».proof.Proof.Gen.Kernel
import proofs.«401755_j68324339745161_3_alg».proof.Proof.Gen.Kernel.Skeleton
import proofs.«401755_j68324339745161_3_alg».proof.Proof.Gen.Kernel.Launch
import proofs.«401755_j68324339745161_3_alg».proof.Proof.Gen.Kernel.Points
import proofs.«401755_j68324339745161_3_alg».proof.Proof.Gen.Kernel.Frame
import proofs.«401755_j68324339745161_3_alg».proof.Proof.Gen.KernelIdeal
import proofs.«401755_j68324339745161_3_alg».proof.Proof.Gen.KernelIdeal.Skeleton
import proofs.«401755_j68324339745161_3_alg».proof.Proof.Gen.KernelIdeal.Launch
import proofs.«401755_j68324339745161_3_alg».proof.Proof.Gen.KernelIdeal.Points
import proofs.«401755_j68324339745161_3_alg».proof.Proof.Gen.KernelIdeal.Frame
import proofs.«401755_j68324339745161_3_alg».proof.Proof.Gen.ReferenceIdeal
import proofs.«401755_j68324339745161_3_alg».proof.Proof.Gen.Pre_finite_inputs
import proofs.«401755_j68324339745161_3_alg».proof.Proof.RefRun
import proofs.«401755_j68324339745161_3_alg».proof.Proof.RefSpec
import proofs.«401755_j68324339745161_3_alg».proof.Proof.KRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories agreeing on the arguments both programs end with the specification's array of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefSpec.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
